-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x16384x3 : Shape := ⟨3, ![16, 16384, 3]⟩
abbrev S16x1024 : Shape := ⟨2, ![16, 1024]⟩
abbrev S_ : Shape := ⟨0, ![]⟩

class Facts : Prop where
  bcast_S_S16x16384x3 : S_.BroadcastsInDim S16x16384x3 (![] : Fin 0 → Fin S16x16384x3.rank)
  reducesTo_S16x16384x3_S_d0_1_2 : S16x16384x3.ReducesTo [0, 1, 2] S_
  h_S_ : 0 < S_.numel

variable [Facts]

def fn {F : FTy → Type} [FloatOps F] (main_arg0 : FVec F S16x16384x3 .f32) (main_arg1 : IVec S16x1024 32) : IVec S_ 1 :=
  let main_v0 : FVec F S16x16384x3 .f32 := Host.absf main_arg0
  let main_cst : FVec F S_ .f32 := constant S_ .f32 0x7F800000#32
  let main_v1 : FVec F S16x16384x3 .f32 := broadcastInDim S16x16384x3 ![] bcast_S_S16x16384x3 main_cst
  let main_v2 : IVec S16x16384x3 1 := cmpf .olt main_v0 main_v1
  let main_c : IVec S_ 1 := constantI S_ 1 1#1
  let main_v3 : IVec S_ 1 := (fun x v => Host.reduce IntOp.andi x v reducesTo_S16x16384x3_S_d0_1_2 h_S_) main_v2 main_c
  main_v3
-- ==== Kernel.lean ====
abbrev S16x16384x3 : Shape := ⟨3, ![16, 16384, 3]⟩
abbrev S16x1024 : Shape := ⟨2, ![16, 1024]⟩
abbrev S3 : Shape := ⟨1, ![3]⟩
abbrev S3x2 : Shape := ⟨2, ![3, 2]⟩
abbrev S3x1 : Shape := ⟨2, ![3, 1]⟩
abbrev S_ : Shape := ⟨0, ![]⟩
abbrev S3x2x1 : Shape := ⟨3, ![3, 2, 1]⟩
abbrev S3x2x2 : Shape := ⟨3, ![3, 2, 2]⟩
abbrev S3x2x3 : Shape := ⟨3, ![3, 2, 3]⟩
abbrev S1x16 : Shape := ⟨2, ![1, 16]⟩
abbrev S3x1x3 : Shape := ⟨3, ![3, 1, 3]⟩
abbrev S3x3 : Shape := ⟨2, ![3, 3]⟩
abbrev S1 : Shape := ⟨1, ![1]⟩

abbrev nBuf : Space → Nat
  | .hbm => 46
  | .vmem => 2
  | .smem => 1
  | _ => 0

abbrev bufTy : (tb : Table) → Fin (tcTables nBuf tb) → BufTy
  | .hbm, ⟨0, _⟩ => ⟨S16x16384x3, .f32⟩
  | .hbm, ⟨1, _⟩ => ⟨S16x1024, .i32⟩
  | .hbm, ⟨2, _⟩ => ⟨S3x2, .i32⟩
  | .hbm, ⟨3, _⟩ => ⟨S3x2, .i32⟩
  | .hbm, ⟨4, _⟩ => ⟨S3x1, .i32⟩
  | .hbm, ⟨5, _⟩ => ⟨S_, .i32⟩
  | .hbm, ⟨6, _⟩ => ⟨S3x1, .i32⟩
  | .hbm, ⟨7, _⟩ => ⟨S3x1, .i1⟩
  | .hbm, ⟨8, _⟩ => ⟨S_, .i32⟩
  | .hbm, ⟨9, _⟩ => ⟨S3x1, .i32⟩
  | .hbm, ⟨10, _⟩ => ⟨S3x1, .i32⟩
  | .hbm, ⟨11, _⟩ => ⟨S3x1, .i32⟩
  | .hbm, ⟨12, _⟩ => ⟨S_, .i32⟩
  | .hbm, ⟨13, _⟩ => ⟨S3x2, .i32⟩
  | .hbm, ⟨14, _⟩ => ⟨S3x2, .i1⟩
  | .hbm, ⟨15, _⟩ => ⟨S_, .i32⟩
  | .hbm, ⟨16, _⟩ => ⟨S3x2, .i32⟩
  | .hbm, ⟨17, _⟩ => ⟨S3x2, .i32⟩
  | .hbm, ⟨18, _⟩ => ⟨S3x2, .i32⟩
  | .hbm, ⟨19, _⟩ => ⟨S3x2, .i32⟩
  | .hbm, ⟨20, _⟩ => ⟨S3x2x1, .i32⟩
  | .hbm, ⟨21, _⟩ => ⟨S3x2x1, .i32⟩
  | .hbm, ⟨22, _⟩ => ⟨S3x2x2, .i32⟩
  | .hbm, ⟨23, _⟩ => ⟨S3x2, .i32⟩
  | .hbm, ⟨24, _⟩ => ⟨S3x2, .i32⟩
  | .hbm, ⟨25, _⟩ => ⟨S3x1, .i32⟩
  | .hbm, ⟨26, _⟩ => ⟨S_, .i32⟩
  | .hbm, ⟨27, _⟩ => ⟨S3x1, .i32⟩
  | .hbm, ⟨28, _⟩ => ⟨S3x1, .i1⟩
  | .hbm, ⟨29, _⟩ => ⟨S_, .i32⟩
  | .hbm, ⟨30, _⟩ => ⟨S3x1, .i32⟩
  | .hbm, ⟨31, _⟩ => ⟨S3x1, .i32⟩
  | .hbm, ⟨32, _⟩ => ⟨S3x1, .i32⟩
  | .hbm, ⟨33, _⟩ => ⟨S_, .i32⟩
  | .hbm, ⟨34, _⟩ => ⟨S3x2, .i32⟩
  | .hbm, ⟨35, _⟩ => ⟨S3x2, .i1⟩
  | .hbm, ⟨36, _⟩ => ⟨S_, .i32⟩
  | .hbm, ⟨37, _⟩ => ⟨S3x2, .i32⟩
  | .hbm, ⟨38, _⟩ => ⟨S3x2, .i32⟩
  | .hbm, ⟨39, _⟩ => ⟨S3x2, .i32⟩
  | .hbm, ⟨40, _⟩ => ⟨S3x2, .i32⟩
  | .hbm, ⟨41, _⟩ => ⟨S3x2x1, .i32⟩
  | .hbm, ⟨42, _⟩ => ⟨S3x2x1, .i32⟩
  | .hbm, ⟨43, _⟩ => ⟨S3x2x2, .i32⟩
  | .hbm, ⟨44, _⟩ => ⟨S3x2x3, .f32⟩
  | .hbm, ⟨45, _⟩ => ⟨S1x16, .f32⟩
  | .local _ .vmem, ⟨0, _⟩ => ⟨S3x2x3, .f32⟩
  | .local _ .vmem, ⟨1, _⟩ => ⟨S1x16, .f32⟩
  | .local _ .smem, ⟨0, _⟩ => ⟨S3, .i32⟩
  | _, _ => ⟨S16x16384x3, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c_0 : Ref sig .tc := ⟨.hbm, 2, rfl⟩
abbrev main_c_1 : Ref sig .tc := ⟨.hbm, 3, rfl⟩
abbrev main_v0 : Ref sig .tc := ⟨.hbm, 4, rfl⟩
abbrev main_c_2 : Ref sig .tc := ⟨.hbm, 5, rfl⟩
abbrev main_v1 : Ref sig .tc := ⟨.hbm, 6, rfl⟩
abbrev main_v2 : Ref sig .tc := ⟨.hbm, 7, rfl⟩
abbrev main_c_3 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_4 : Ref sig .tc := ⟨.hbm, 12, rfl⟩
abbrev main_v6 : Ref sig .tc := ⟨.hbm, 13, rfl⟩
abbrev main_v7 : Ref sig .tc := ⟨.hbm, 14, rfl⟩
abbrev main_c_5 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_6 : Ref sig .tc := ⟨.hbm, 26, rfl⟩
abbrev main_v18 : Ref sig .tc := ⟨.hbm, 27, rfl⟩
abbrev main_v19 : Ref sig .tc := ⟨.hbm, 28, rfl⟩
abbrev main_c_7 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_8 : Ref sig .tc := ⟨.hbm, 33, rfl⟩
abbrev main_v23 : Ref sig .tc := ⟨.hbm, 34, rfl⟩
abbrev main_v24 : Ref sig .tc := ⟨.hbm, 35, rfl⟩
abbrev main_c_9 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c : Ref sig .tc := ⟨.smem, 0, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S3x2x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  bcast_S3_S3x1_0 : S3.BroadcastsInDim S3x1 (![0] : Fin 1 → Fin S3x1.rank)
  bcast_S_S3x1 : S_.BroadcastsInDim S3x1 (![] : Fin 0 → Fin S3x1.rank)
  bcast_S_S3x2 : S_.BroadcastsInDim S3x2 (![] : Fin 0 → Fin S3x2.rank)
  bcast_S3x1_S3x2_0_1 : S3x1.BroadcastsInDim S3x2 (![0, 1] : Fin 2 → Fin S3x2.rank)
  bcast_S3x2_S3x2x1_0_1 : S3x2.BroadcastsInDim S3x2x1 (![0, 1] : Fin 2 → Fin S3x2x1.rank)
  concatenates_S3x2x1_S3x2x1_S3x2x2_d2 : Shape.Concatenates [S3x2x1, S3x2x1] S3x2x2 2
  inb_S3x2x3_S3x2x3_0_0_0 : ∀ a, (![0, 0, 0] : Fin 3 → Nat) a + S3x2x3.size a ≤ S3x2x3.size a
  h_S3x2x3 : 0 < S3x2x3.numel
  shapeCasts_S3x2x3_S3x2x3 : S3x2x3.ShapeCasts S3x2x3
  slices_S3x2x3_o0_0_0_S3x1x3 : S3x2x3.Slices ![0, 0, 0] S3x1x3
  shapeCasts_S3x1x3_S3x3 : S3x1x3.ShapeCasts S3x3
  slices_S3x2x3_o0_1_0_S3x1x3 : S3x2x3.Slices ![0, 1, 0] S3x1x3
  reduces_S3x3_S3 : S3x3.Reduces [1] S3
  iota_S1x16_d1_w32 : S1x16.Iotas .tc 32 [1]
  inb_S3_S1_0 : ∀ a, (![0] : Fin 1 → Nat) a + S1.size a ≤ S3.size a
  numel1_S1 : S1.numel = 1
  slices_S3_o0_S1 : S3.Slices ![0] S1
  inpos_S1_p0 : ∀ a, (![0] : Fin 1 → Nat) a < S1.size a
  inb_S3_S1_1 : ∀ a, (![1] : Fin 1 → Nat) a + S1.size a ≤ S3.size a
  slices_S3_o1_S1 : S3.Slices ![1] S1
  inb_S3_S1_2 : ∀ a, (![2] : Fin 1 → Nat) a + S1.size a ≤ S3.size a
  slices_S3_o2_S1 : S3.Slices ![2] S1
  inb_S1x16_S1x16_0_0 : ∀ a, (![0, 0] : Fin 2 → Nat) a + S1x16.size a ≤ S1x16.size a
  h_S1x16 : 0 < S1x16.numel
  gather_S16x1024_S3x2x2_S3x2_n_01_n_n_01_2_11_wf : GatherDims.WF S16x1024 S3x2x2 S3x2 [] [0, 1] [] [0, 1] [] 2 ![1, 1]
  gather_S16x16384x3_S3x2x2_S3x2x3_2_01_n_n_01_2_113_wf : GatherDims.WF S16x16384x3 S3x2x2 S3x2x3 [2] [0, 1] [] [0, 1] [] 2 ![1, 1, 3]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S3x2x3.size a ≤ S3x2x3.size a
  hwx0_0 : ∀ i : grid0.Coords, EltTy.bits .f32 = 32 ∨ (Rect.block (s := S3x2x3) S3x2x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x16.size a ≤ S1x16.size a
  hwx0_1 : ∀ i : grid0.Coords, EltTy.bits .f32 = 32 ∨ (Rect.block (s := S1x16) S1x16.size (cc0_transform_1 i) (hinb0_1 i)).WholeWords (EltTy.packing .f32)

variable [Facts₀]

def gather_S16x1024_S3x2x2_S3x2_n_01_n_n_01_2_11 : GatherDims S16x1024 S3x2x2 S3x2 where
  offsetDims := []
  collapsedSliceDims := [0, 1]
  operandBatchingDims := []
  startIndicesBatchingDims := []
  startIndexMap := [0, 1]
  indexVectorDim := 2
  sliceSizes := ![1, 1]
  wf := gather_S16x1024_S3x2x2_S3x2_n_01_n_n_01_2_11_wf
def gather_S16x16384x3_S3x2x2_S3x2x3_2_01_n_n_01_2_113 : GatherDims S16x16384x3 S3x2x2 S3x2x3 where
  offsetDims := [2]
  collapsedSliceDims := [0, 1]
  operandBatchingDims := []
  startIndicesBatchingDims := []
  startIndexMap := [0, 1]
  indexVectorDim := 2
  sliceSizes := ![1, 1, 3]
  wf := gather_S16x16384x3_S3x2x2_S3x2x3_2_01_n_n_01_2_113_wf

abbrev spec0_0 : Pipeline.WinSpec sig grid0.rank :=
  Pipeline.WinSpec.ofSpec (Memref.whole main_v32) S3x2x3.size reads0_0 false true 1 stage0_0 sem0_0 nbuf0_0 hstage0_0

abbrev spec0_1 : Pipeline.WinSpec sig grid0.rank :=
  Pipeline.WinSpec.ofSpec (Memref.whole main_v33) S1x16.size reads0_1 true true 1 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_0 | 1 => cc0_transform_1 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | ⟨_ + 2, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | ⟨_ + 2, h⟩ => absurd h (Nat.not_lt.2 (Nat.le_add_left _ _))

class Facts : Prop extends Facts₀ where
  harr0 : ∀ w, (spec0 w).arr.IsWhole

variable [Facts]
-- ==== ReferenceIdeal.lean ====
abbrev S16x16384x3 : Shape := ⟨3, ![16, 16384, 3]⟩
abbrev S16x1024 : Shape := ⟨2, ![16, 1024]⟩
abbrev S3x4x2 : Shape := ⟨3, ![3, 4, 2]⟩
abbrev S3 : Shape := ⟨1, ![3]⟩
abbrev S3x4x1 : Shape := ⟨3, ![3, 4, 1]⟩
abbrev S3x4 : Shape := ⟨2, ![3, 4]⟩
abbrev S3x1 : Shape := ⟨2, ![3, 1]⟩
abbrev S_ : Shape := ⟨0, ![]⟩
abbrev S3x4x3 : Shape := ⟨3, ![3, 4, 3]⟩
abbrev S3x1x3 : Shape := ⟨3, ![3, 1, 3]⟩
abbrev S3x3 : Shape := ⟨2, ![3, 3]⟩
abbrev S16777216 : Shape := ⟨1, ![16777216]⟩
abbrev S16x1024x1024 : Shape := ⟨3, ![16, 1024, 1024]⟩
abbrev S16 : Shape := ⟨1, ![16]⟩
abbrev S1x16 : Shape := ⟨2, ![1, 16]⟩

abbrev nBuf : Space → Nat
  | .hbm => 122
  | .vmem => 0
  | .smem => 0
  | _ => 0

abbrev bufTy : (tb : Table) → Fin (tcTables nBuf tb) → BufTy
  | .hbm, ⟨0, _⟩ => ⟨S16x16384x3, .f32⟩
  | .hbm, ⟨1, _⟩ => ⟨S16x1024, .i32⟩
  | .hbm, ⟨2, _⟩ => ⟨S3x4x2, .i32⟩
  | .hbm, ⟨3, _⟩ => ⟨S3, .i32⟩
  | .hbm, ⟨4, _⟩ => ⟨S3x4x1, .i32⟩
  | .hbm, ⟨5, _⟩ => ⟨S3x4, .i32⟩
  | .hbm, ⟨6, _⟩ => ⟨S3x4x1, .i32⟩
  | .hbm, ⟨7, _⟩ => ⟨S3x4, .i32⟩
  | .hbm, ⟨8, _⟩ => ⟨S3x1, .i32⟩
  | .hbm, ⟨9, _⟩ => ⟨S_, .i32⟩
  | .hbm, ⟨10, _⟩ => ⟨S3x1, .i32⟩
  | .hbm, ⟨11, _⟩ => ⟨S3x1, .i1⟩
  | .hbm, ⟨12, _⟩ => ⟨S_, .i32⟩
  | .hbm, ⟨13, _⟩ => ⟨S3x1, .i32⟩
  | .hbm, ⟨14, _⟩ => ⟨S3x1, .i32⟩
  | .hbm, ⟨15, _⟩ => ⟨S3x1, .i32⟩
  | .hbm, ⟨16, _⟩ => ⟨S_, .i32⟩
  | .hbm, ⟨17, _⟩ => ⟨S3x4, .i32⟩
  | .hbm, ⟨18, _⟩ => ⟨S3x4, .i1⟩
  | .hbm, ⟨19, _⟩ => ⟨S_, .i32⟩
  | .hbm, ⟨20, _⟩ => ⟨S3x4, .i32⟩
  | .hbm, ⟨21, _⟩ => ⟨S3x4, .i32⟩
  | .hbm, ⟨22, _⟩ => ⟨S3x4, .i32⟩
  | .hbm, ⟨23, _⟩ => ⟨S3x4, .i32⟩
  | .hbm, ⟨24, _⟩ => ⟨S3x4x1, .i32⟩
  | .hbm, ⟨25, _⟩ => ⟨S3x4x1, .i32⟩
  | .hbm, ⟨26, _⟩ => ⟨S3x4x2, .i32⟩
  | .hbm, ⟨27, _⟩ => ⟨S3x4, .i32⟩
  | .hbm, ⟨28, _⟩ => ⟨S3x4, .i32⟩
  | .hbm, ⟨29, _⟩ => ⟨S3x1, .i32⟩
  | .hbm, ⟨30, _⟩ => ⟨S_, .i32⟩
  | .hbm, ⟨31, _⟩ => ⟨S3x1, .i32⟩
  | .hbm, ⟨32, _⟩ => ⟨S3x1, .i1⟩
  | .hbm, ⟨33, _⟩ => ⟨S_, .i32⟩
  | .hbm, ⟨34, _⟩ => ⟨S3x1, .i32⟩
  | .hbm, ⟨35, _⟩ => ⟨S3x1, .i32⟩
  | .hbm, ⟨36, _⟩ => ⟨S3x1, .i32⟩
  | .hbm, ⟨37, _⟩ => ⟨S_, .i32⟩
  | .hbm, ⟨38, _⟩ => ⟨S3x4, .i32⟩
  | .hbm, ⟨39, _⟩ => ⟨S3x4, .i1⟩
  | .hbm, ⟨40, _⟩ => ⟨S_, .i32⟩
  | .hbm, ⟨41, _⟩ => ⟨S3x4, .i32⟩
  | .hbm, ⟨42, _⟩ => ⟨S3x4, .i32⟩
  | .hbm, ⟨43, _⟩ => ⟨S3x4, .i32⟩
  | .hbm, ⟨44, _⟩ => ⟨S3x4, .i32⟩
  | .hbm, ⟨45, _⟩ => ⟨S3x4x1, .i32⟩
  | .hbm, ⟨46, _⟩ => ⟨S3x4x1, .i32⟩
  | .hbm, ⟨47, _⟩ => ⟨S3x4x2, .i32⟩
  | .hbm, ⟨48, _⟩ => ⟨S3x4x3, .f32⟩
  | .hbm, ⟨49, _⟩ => ⟨S3x1x3, .f32⟩
  | .hbm, ⟨50, _⟩ => ⟨S3x3, .f32⟩
  | .hbm, ⟨51, _⟩ => ⟨S3x1x3, .f32⟩
  | .hbm, ⟨52, _⟩ => ⟨S3x3, .f32⟩
  | .hbm, ⟨53, _⟩ => ⟨S3x3, .f32⟩
  | .hbm, ⟨54, _⟩ => ⟨S3x3, .f32⟩
  | .hbm, ⟨55, _⟩ => ⟨S_, .f32⟩
  | .hbm, ⟨56, _⟩ => ⟨S3, .f32⟩
  | .hbm, ⟨57, _⟩ => ⟨S3, .f32⟩
  | .hbm, ⟨58, _⟩ => ⟨S_, .f32⟩
  | .hbm, ⟨59, _⟩ => ⟨S3, .f32⟩
  | .hbm, ⟨60, _⟩ => ⟨S3, .f32⟩
  | .hbm, ⟨61, _⟩ => ⟨S3, .f32⟩
  | .hbm, ⟨62, _⟩ => ⟨S_, .f32⟩
  | .hbm, ⟨63, _⟩ => ⟨S16777216, .f32⟩
  | .hbm, ⟨64, _⟩ => ⟨S_, .i32⟩
  | .hbm, ⟨65, _⟩ => ⟨S3, .i32⟩
  | .hbm, ⟨66, _⟩ => ⟨S3, .i32⟩
  | .hbm, ⟨67, _⟩ => ⟨S_, .i32⟩
  | .hbm, ⟨68, _⟩ => ⟨S3, .i32⟩
  | .hbm, ⟨69, _⟩ => ⟨S3, .i32⟩
  | .hbm, ⟨70, _⟩ => ⟨S3x1, .i32⟩
  | .hbm, ⟨71, _⟩ => ⟨S3, .i32⟩
  | .hbm, ⟨72, _⟩ => ⟨S_, .i32⟩
  | .hbm, ⟨73, _⟩ => ⟨S3, .i32⟩
  | .hbm, ⟨74, _⟩ => ⟨S3, .i32⟩
  | .hbm, ⟨75, _⟩ => ⟨S3, .i32⟩
  | .hbm, ⟨76, _⟩ => ⟨S3x1, .i32⟩
  | .hbm, ⟨77, _⟩ => ⟨S3, .i32⟩
  | .hbm, ⟨78, _⟩ => ⟨S3, .i32⟩
  | .hbm, ⟨79, _⟩ => ⟨S_, .i32⟩
  | .hbm, ⟨80, _⟩ => ⟨S3, .i32⟩
  | .hbm, ⟨81, _⟩ => ⟨S3, .i32⟩
  | .hbm, ⟨82, _⟩ => ⟨S_, .i32⟩
  | .hbm, ⟨83, _⟩ => ⟨S3, .i32⟩
  | .hbm, ⟨84, _⟩ => ⟨S3, .i32⟩
  | .hbm, ⟨85, _⟩ => ⟨S3x1, .i32⟩
  | .hbm, ⟨86, _⟩ => ⟨S3, .i32⟩
  | .hbm, ⟨87, _⟩ => ⟨S_, .i32⟩
  | .hbm, ⟨88, _⟩ => ⟨S3, .i32⟩
  | .hbm, ⟨89, _⟩ => ⟨S3, .i32⟩
  | .hbm, ⟨90, _⟩ => ⟨S3, .i32⟩
  | .hbm, ⟨91, _⟩ => ⟨S3x1, .i32⟩
  | .hbm, ⟨92, _⟩ => ⟨S3, .i32⟩
  | .hbm, ⟨93, _⟩ => ⟨S3, .i32⟩
  | .hbm, ⟨94, _⟩ => ⟨S_, .f32⟩
  | .hbm, ⟨95, _⟩ => ⟨S3, .f32⟩
  | .hbm, ⟨96, _⟩ => ⟨S3, .f32⟩
  | .hbm, ⟨97, _⟩ => ⟨S_, .i32⟩
  | .hbm, ⟨98, _⟩ => ⟨S3, .i32⟩
  | .hbm, ⟨99, _⟩ => ⟨S3, .i1⟩
  | .hbm, ⟨100, _⟩ => ⟨S_, .i32⟩
  | .hbm, ⟨101, _⟩ => ⟨S3, .i32⟩
  | .hbm, ⟨102, _⟩ => ⟨S3, .i32⟩
  | .hbm, ⟨103, _⟩ => ⟨S3, .i32⟩
  | .hbm, ⟨104, _⟩ => ⟨S3x1, .i32⟩
  | .hbm, ⟨105, _⟩ => ⟨S16777216, .f32⟩
  | .hbm, ⟨106, _⟩ => ⟨S_, .f32⟩
  | .hbm, ⟨107, _⟩ => ⟨S3, .f32⟩
  | .hbm, ⟨108, _⟩ => ⟨S3, .f32⟩
  | .hbm, ⟨109, _⟩ => ⟨S_, .i32⟩
  | .hbm, ⟨110, _⟩ => ⟨S3, .i32⟩
  | .hbm, ⟨111, _⟩ => ⟨S3, .i1⟩
  | .hbm, ⟨112, _⟩ => ⟨S_, .i32⟩
  | .hbm, ⟨113, _⟩ => ⟨S3, .i32⟩
  | .hbm, ⟨114, _⟩ => ⟨S3, .i32⟩
  | .hbm, ⟨115, _⟩ => ⟨S3, .i32⟩
  | .hbm, ⟨116, _⟩ => ⟨S3x1, .i32⟩
  | .hbm, ⟨117, _⟩ => ⟨S16777216, .f32⟩
  | .hbm, ⟨118, _⟩ => ⟨S16x1024x1024, .f32⟩
  | .hbm, ⟨119, _⟩ => ⟨S_, .f32⟩
  | .hbm, ⟨120, _⟩ => ⟨S16, .f32⟩
  | .hbm, ⟨121, _⟩ => ⟨S1x16, .f32⟩
  | _, _ => ⟨S16x16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_v5 : Ref sig .tc := ⟨.hbm, 10, rfl⟩
abbrev main_v6 : Ref sig .tc := ⟨.hbm, 11, rfl⟩
abbrev main_c_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_3 : Ref sig .tc := ⟨.hbm, 16, rfl⟩
abbrev main_v10 : Ref sig .tc := ⟨.hbm, 17, rfl⟩
abbrev main_v11 : Ref sig .tc := ⟨.hbm, 18, rfl⟩
abbrev main_c_4 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_5 : Ref sig .tc := ⟨.hbm, 30, rfl⟩
abbrev main_v22 : Ref sig .tc := ⟨.hbm, 31, rfl⟩
abbrev main_v23 : Ref sig .tc := ⟨.hbm, 32, rfl⟩
abbrev main_c_6 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_7 : Ref sig .tc := ⟨.hbm, 37, rfl⟩
abbrev main_v27 : Ref sig .tc := ⟨.hbm, 38, rfl⟩
abbrev main_v28 : Ref sig .tc := ⟨.hbm, 39, rfl⟩
abbrev main_c_8 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst : Ref sig .tc := ⟨.hbm, 55, rfl⟩
abbrev main_v43 : Ref sig .tc := ⟨.hbm, 56, rfl⟩
abbrev main_v44 : Ref sig .tc := ⟨.hbm, 57, rfl⟩
abbrev main_cst_9 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_10 : Ref sig .tc := ⟨.hbm, 62, rfl⟩
abbrev main_v48 : Ref sig .tc := ⟨.hbm, 63, rfl⟩
abbrev main_c_11 : Ref sig .tc := ⟨.hbm, 64, rfl⟩
abbrev main_v49 : Ref sig .tc := ⟨.hbm, 65, rfl⟩
abbrev main_v50 : Ref sig .tc := ⟨.hbm, 66, rfl⟩
abbrev main_c_12 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_c_13 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_c_14 : Ref sig .tc := ⟨.hbm, 79, rfl⟩
abbrev main_v61 : Ref sig .tc := ⟨.hbm, 80, rfl⟩
abbrev main_v62 : Ref sig .tc := ⟨.hbm, 81, rfl⟩
abbrev main_c_15 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_c_16 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_17 : Ref sig .tc := ⟨.hbm, 94, rfl⟩
abbrev main_v73 : Ref sig .tc := ⟨.hbm, 95, rfl⟩
abbrev main_v74 : Ref sig .tc := ⟨.hbm, 96, rfl⟩
abbrev main_c_18 : Ref sig .tc := ⟨.hbm, 97, rfl⟩
abbrev main_v75 : Ref sig .tc := ⟨.hbm, 98, rfl⟩
abbrev main_v76 : Ref sig .tc := ⟨.hbm, 99, rfl⟩
abbrev main_c_19 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_cst_20 : Ref sig .tc := ⟨.hbm, 106, rfl⟩
abbrev main_v82 : Ref sig .tc := ⟨.hbm, 107, rfl⟩
abbrev main_v83 : Ref sig .tc := ⟨.hbm, 108, rfl⟩
abbrev main_c_21 : Ref sig .tc := ⟨.hbm, 109, rfl⟩
abbrev main_v84 : Ref sig .tc := ⟨.hbm, 110, rfl⟩
abbrev main_v85 : Ref sig .tc := ⟨.hbm, 111, rfl⟩
abbrev main_c_22 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_cst_23 : Ref sig .tc := ⟨.hbm, 119, rfl⟩
abbrev main_v92 : Ref sig .tc := ⟨.hbm, 120, rfl⟩
abbrev main_v93 : Ref sig .tc := ⟨.hbm, 121, rfl⟩

abbrev nD : Nat := 1
abbrev τ : Topo := Topo.v7x

variable {F : FTy → Type} [FloatOps F]

class Facts₀ : Prop where
  slices_S3x4x2_S3x4x1_0_0_0 : S3x4x2.Slices ![0, 0, 0] S3x4x1
  shapeCasts_S3x4x1_S3x4 : S3x4x1.ShapeCasts S3x4
  slices_S3x4x2_S3x4x1_0_0_1 : S3x4x2.Slices ![0, 0, 1] S3x4x1
  bcast_S3_S3x1_0 : S3.BroadcastsInDim S3x1 (![0] : Fin 1 → Fin S3x1.rank)
  bcast_S_S3x1 : S_.BroadcastsInDim S3x1 (![] : Fin 0 → Fin S3x1.rank)
  bcast_S_S3x4 : S_.BroadcastsInDim S3x4 (![] : Fin 0 → Fin S3x4.rank)
  bcast_S3x1_S3x4_0_1 : S3x1.BroadcastsInDim S3x4 (![0, 1] : Fin 2 → Fin S3x4.rank)
  bcast_S3x4_S3x4x1_0_1 : S3x4.BroadcastsInDim S3x4x1 (![0, 1] : Fin 2 → Fin S3x4x1.rank)
  concatenates_S3x4x1_S3x4x1_S3x4x2_d2 : Shape.Concatenates [S3x4x1, S3x4x1] S3x4x2 2
  slices_S3x4x3_S3x1x3_0_0_0 : S3x4x3.Slices ![0, 0, 0] S3x1x3
  shapeCasts_S3x1x3_S3x3 : S3x1x3.ShapeCasts S3x3
  slices_S3x4x3_S3x1x3_0_1_0 : S3x4x3.Slices ![0, 1, 0] S3x1x3
  reducesTo_S3x3_S3_d1 : S3x3.ReducesTo [1] S3
  h_S_ : 0 < S_.numel
  bcast_S_S3 : S_.BroadcastsInDim S3 (![] : Fin 0 → Fin S3.rank)
  bcast_S_S16777216 : S_.BroadcastsInDim S16777216 (![] : Fin 0 → Fin S16777216.rank)
  slices_S3x4_S3x1_0_0 : S3x4.Slices ![0, 0] S3x1
  shapeCasts_S3x1_S3 : S3x1.ShapeCasts S3
  slices_S3x4_S3x1_0_1 : S3x4.Slices ![0, 1] S3x1
  shapeCasts_S16777216_S16x1024x1024 : S16777216.ShapeCasts S16x1024x1024
  reducesTo_S16x1024x1024_S16_d1_2 : S16x1024x1024.ReducesTo [1, 2] S16
  bcast_S16_S1x16_1 : S16.BroadcastsInDim S1x16 (![1] : Fin 1 → Fin S1x16.rank)
  gather_S16x1024_S3x4x2_S3x4_n_01_n_n_01_2_11_wf : GatherDims.WF S16x1024 S3x4x2 S3x4 [] [0, 1] [] [0, 1] [] 2 ![1, 1]
  gather_S16x16384x3_S3x4x2_S3x4x3_2_01_n_n_01_2_113_wf : GatherDims.WF S16x16384x3 S3x4x2 S3x4x3 [2] [0, 1] [] [0, 1] [] 2 ![1, 1, 3]
  scatter_S16777216_S3x1_S3_n_0_0_1_wf : ScatterDims.WF S16777216 S3x1 S3 [] [0] [0] 1

variable [Facts₀]

def gather_S16x1024_S3x4x2_S3x4_n_01_n_n_01_2_11 : GatherDims S16x1024 S3x4x2 S3x4 where
  offsetDims := []
  collapsedSliceDims := [0, 1]
  operandBatchingDims := []
  startIndicesBatchingDims := []
  startIndexMap := [0, 1]
  indexVectorDim := 2
  sliceSizes := ![1, 1]
  wf := gather_S16x1024_S3x4x2_S3x4_n_01_n_n_01_2_11_wf
def gather_S16x16384x3_S3x4x2_S3x4x3_2_01_n_n_01_2_113 : GatherDims S16x16384x3 S3x4x2 S3x4x3 where
  offsetDims := [2]
  collapsedSliceDims := [0, 1]
  operandBatchingDims := []
  startIndicesBatchingDims := []
  startIndexMap := [0, 1]
  indexVectorDim := 2
  sliceSizes := ![1, 1, 3]
  wf := gather_S16x16384x3_S3x4x2_S3x4x3_2_01_n_n_01_2_113_wf
def scatter_S16777216_S3x1_S3_n_0_0_1 : ScatterDims S16777216 S3x1 S3 where
  updateWindowDims := []
  insertedWindowDims := [0]
  scatterDimsToOperandDims := [0]
  indexVectorDim := 1
  wf := scatter_S16777216_S3x1_S3_n_0_0_1_wf

class Facts : Prop extends Facts₀ where

variable [Facts]
-- ==== Proof.KDefs.lean ====
/-
  The kernel's host prefix as named stages.

  Before the region the program normalises three small index tables (a negative entry is moved up by the axis length),
  gathers one offset word per (constraint, slot) out of the block-offset table, adds the within-block atom number,
  normalises again and gathers the six atom rows out of the coordinate array.  Each stage below is the term the
  corresponding host operations compute, as a function of the two argument arrays; the region is handed
  `kAtoms x off`, a (3, 2, 3) array: constraint, slot, coordinate.
-/
import proofs.«403794_j40054865002541_3_alg».proof.Proof.Gen.KernelIdeal

noncomputable section

namespace Cert.KernelIdeal.KValue

open Cert.KernelIdeal Cert.KernelIdeal.Gen Idealize.ShloMosaic

variable {F : FTy → Type} [FloatOps F]

/-- The pose number of each constraint as a column, sign-normalised against the 16 poses. -/
def kPose : IVec S3x1 32 :=
  select (cmpi .slt (broadcastInDim S3x1 ![0] bcast_S3_S3x1_0 (constantI S3 32 0#32)) (broadcastInDim S3x1 ![] bcast_S_S3x1 (constantI S_ 32 0#32)))
    (addi (broadcastInDim S3x1 ![0] bcast_S3_S3x1_0 (constantI S3 32 0#32)) (broadcastInDim S3x1 ![] bcast_S_S3x1 (constantI S_ 32 16#32)))
    (broadcastInDim S3x1 ![0] bcast_S3_S3x1_0 (constantI S3 32 0#32))

/-- The residue number of each (constraint, slot), sign-normalised against the 1024 blocks. -/
def kRes : IVec S3x2 32 :=
  select (cmpi .slt (fun i => lit0 (S3x2.rowMajor i)) (broadcastInDim S3x2 ![] bcast_S_S3x2 (constantI S_ 32 0#32)))
    (addi (fun i => lit0 (S3x2.rowMajor i)) (broadcastInDim S3x2 ![] bcast_S_S3x2 (constantI S_ 32 1024#32)))
    (fun i => lit0 (S3x2.rowMajor i))

/-- The start indices (pose, residue) of the offset gather. -/
def kIdx1 : IVec S3x2x2 32 :=
  concatenate S3x2x2 2 [⟨S3x2x1, broadcastInDim S3x2x1 ![0, 1] bcast_S3x2_S3x2x1_0_1 (broadcastInDim S3x2 ![0, 1] bcast_S3x1_S3x2_0_1 kPose)⟩,
    ⟨S3x2x1, broadcastInDim S3x2x1 ![0, 1] bcast_S3x2_S3x2x1_0_1 kRes⟩] concatenates_S3x2x1_S3x2x1_S3x2x2_d2

/-- The atom row of each (constraint, slot): the block's offset word plus the atom's number within the block. -/
def kOffs (off : IVec S16x1024 32) : IVec S3x2 32 :=
  addi (Host.gather gather_S16x1024_S3x2x2_S3x2_n_01_n_n_01_2_11 off kIdx1) (fun i => lit1 (S3x2.rowMajor i))

/-- The same, sign-normalised against the 16384 atom rows. -/
def kRow (off : IVec S16x1024 32) : IVec S3x2 32 :=
  select (cmpi .slt (kOffs off) (broadcastInDim S3x2 ![] bcast_S_S3x2 (constantI S_ 32 0#32)))
    (addi (kOffs off) (broadcastInDim S3x2 ![] bcast_S_S3x2 (constantI S_ 32 16384#32)))
    (kOffs off)

/-- The start indices (pose, atom row) of the coordinate gather. -/
def kIdx2 (off : IVec S16x1024 32) : IVec S3x2x2 32 :=
  concatenate S3x2x2 2 [⟨S3x2x1, broadcastInDim S3x2x1 ![0, 1] bcast_S3x2_S3x2x1_0_1 (broadcastInDim S3x2 ![0, 1] bcast_S3x1_S3x2_0_1 kPose)⟩,
    ⟨S3x2x1, broadcastInDim S3x2x1 ![0, 1] bcast_S3x2_S3x2x1_0_1 (kRow off)⟩] concatenates_S3x2x1_S3x2x1_S3x2x2_d2

/-- The six gathered atom rows: (constraint, slot, coordinate). -/
def kAtoms (x : FVec F S16x16384x3 .f32) (off : IVec S16x1024 32) : FVec F S3x2x3 .f32 :=
  Host.gather gather_S16x16384x3_S3x2x2_S3x2x3_2_01_n_n_01_2_113 x (kIdx2 off)

end Cert.KernelIdeal.KValue

end
-- ==== Proof.KernelHost.lean ====
/-
  What the kernel's region finds: the prefetched pose table and the staged block of atom rows.

  Before the region the program runs 44 host operations.  The first writes the pose table, three zero words, into scalar
  memory, and nothing writes it again; the last writes the (3, 2, 3) array of gathered atom rows, which as a function of
  the two arguments is `kAtoms`, the composition of the stages named in KDefs.
-/
import proofs.«403794_j40054865002541_3_alg».proof.Proof.Gen.KernelIdeal.Frame
import proofs.«403794_j40054865002541_3_alg».proof.Proof.KDefs
import Idealize.ShloMosaic.Lib.StableHlo.Run
import Idealize.ShloMosaic.PureOps.Ideal

noncomputable section

open Idealize.ShloMosaic Idealize.ShloMosaic.TcCoe Idealize.SL.Sem

namespace Cert.KernelIdeal.KValue

open Cert.KernelIdeal Cert.KernelIdeal.Gen

variable (m : (ℓ : Loc nD τ sig) → Buf (Elt Ideal) ℓ)

/-- The pose table the region reads holds three zero words. -/
theorem tbl_eq : (tbl m 0 : S3.Idx → BitVec 32) = constantI S3 32 0#32 := by
  unfold tbl
  show V m 0 main_c = _
  dsimp only [V, hostOps0]
  after_results_simp

set_option maxHeartbeats 4000000 in
/-- The staged array of atom rows is the gather stages applied to the two arguments. -/
theorem V_atoms (c : Dev nD) :
    (V m c main_v32 : S3x2x3.Idx → EReal)
      = kAtoms (F := Ideal) (m ((c : Thread nD τ).loc main_arg0)) (m ((c : Thread nD τ).loc main_arg1)) := by
  dsimp only [V, hostOps0]
  after_results
  rfl

end Cert.KernelIdeal.KValue

end
-- ==== Proof.Spec.lean ====
/-
  The common vocabulary of the two sides.

  Each constraint scores the squared deviation from 4 of the Euclidean distance between two atoms, read on the extended
  reals: `score a b = (√(Σₖ (aₖ − bₖ)²) − 4)²`.  All three constraints belong to pose 0, so the result row holds the sum of
  the three scores at pose 0 and zero at every other pose.
-/
import Idealize.ShloMosaic.PureOps.Ideal
import Idealize.ShloMosaic.Lib.ValueIdx

noncomputable section

namespace Cert.Harm

open Idealize.ShloMosaic

/-- The distance of two points of extended-real 3-space, less 4. -/
def dev (a b : Fin 3 → EReal) : EReal :=
  Ideal.sqrt (∑ k : Fin 3, (a k - b k) * (a k - b k)) - Ideal.ofBits .f32 0x40800000#32

/-- The harmonic score of a constraint between the points `a` and `b`. -/
def score (a b : Fin 3 → EReal) : EReal := dev a b * dev a b

/-- The result row: the three scores summed at pose 0, zero elsewhere. -/
def outRow (s0 s1 s2 : EReal) (p : Fin 16) : EReal := if p.val = 0 then s0 + s1 + s2 else 0

end Cert.Harm

end
-- ==== Proof.KernelPay.lean ====
/-
  The kernel body's one stored value, read at an entry.

  The body loads the (3, 2, 3) block of atom rows, forms for each constraint the difference of its two rows, the sum of
  the squared differences over the three coordinates, its square root less 4, and the square of that: the score.  It
  then adds, into a zero row of 16 poses, each score at the lanes whose number equals the constraint's pose word.  With
  all three pose words zero the row holds the sum of the three scores at lane 0 and zero at every other lane.
-/
import proofs.«403794_j40054865002541_3_alg».proof.Proof.Gen.KernelIdeal.Skeleton
import proofs.«403794_j40054865002541_3_alg».proof.Proof.Spec
import Idealize.ShloMosaic.PureOps.Ideal.Laws
import Idealize.ShloMosaic.Lib.ValueIdx
import Idealize.ShloMosaic.Lib.Pipeline.Value

noncomputable section

namespace Cert.KernelIdeal.KValue

open Cert.KernelIdeal Cert.KernelIdeal.Gen Idealize.ShloMosaic Idealize.ShloMosaic.ValueIdx

/-- The atom of slot `s` of constraint `c`, as a point of 3-space. -/
def pt (v0 : Vec Ideal S3x2x3 .f32) (c : Fin 3) (s : Fin 2) : Fin 3 → EReal := fun k => v0 (ix3 c s k)

/-- The coordinate differences between the two atoms of each constraint. -/
def kDiff (v0 : Vec Ideal S3x2x3 .f32) : FVec Ideal S3x3 .f32 :=
  subf (shapeCast S3x3 (extractStridedSlice S3x1x3 ![0, 0, 0] (shapeCast S3x2x3 v0 shapeCasts_S3x2x3_S3x2x3) slices_S3x2x3_o0_0_0_S3x1x3) shapeCasts_S3x1x3_S3x3)
    (shapeCast S3x3 (extractStridedSlice S3x1x3 ![0, 1, 0] (shapeCast S3x2x3 v0 shapeCasts_S3x2x3_S3x2x3) slices_S3x2x3_o0_1_0_S3x1x3) shapeCasts_S3x1x3_S3x3)

/-- The squared distance of each constraint's two atoms. -/
def kSS (v0 : Vec Ideal S3x2x3 .f32) : FVec Ideal S3 .f32 :=
  multiReduction .add [1] S3 (mulf (kDiff v0) (kDiff v0)) 0x00000000#32 reduces_S3x3_S3 (.inl rfl) rfl

/-- The distance less 4, and its square. -/
def kDev (v0 : Vec Ideal S3x2x3 .f32) : FVec Ideal S3 .f32 := subf (sqrt (kSS v0)) (broadcast S3 (Scalar.ofBits .f32 0x40800000#32))
def kScore (v0 : Vec Ideal S3x2x3 .f32) : FVec Ideal S3 .f32 := mulf (kDev v0) (kDev v0)

/-- Entry (c, k) of the middle-unit-axis array is entry (c, 0, k): the two row-major positions agree. -/
theorem pos_mid (c k : Fin 3) :
    ((⟨3, ![3, 1, 3]⟩ : Shape).rowMajor (ix3 c (0 : Fin 1) k)).val = ((⟨2, ![3, 3]⟩ : Shape).rowMajor (ix2 c k)).val := by
  rw [Shape.rowMajor_val_three, Shape.rowMajor_val_two]
  show (c.val * 1 + 0) * 3 + k.val = c.val * 3 + k.val
  omega

theorem kDiff_apply (v0 : Vec Ideal S3x2x3 .f32) (c k : Fin 3) :
    kDiff v0 (ix2 c k) = v0 (ix3 c (0 : Fin 2) k) - v0 (ix3 c (1 : Fin 2) k) := by
  unfold kDiff
  rw [subf_apply, shapeCast_self]
  congr 1
  · rw [shapeCast_apply _ _ _ (ix3 c (0 : Fin 1) k) (pos_mid c k)]
    exact extractStridedSlice_apply _ _ _ _ (ix3 c (0 : Fin 2) k) (fun a => by
      match a with
      | ⟨0, _⟩ => exact (Nat.zero_add _).symm
      | ⟨1, _⟩ => rfl
      | ⟨2, _⟩ => exact (Nat.zero_add _).symm)
  · rw [shapeCast_apply _ _ _ (ix3 c (0 : Fin 1) k) (pos_mid c k)]
    exact extractStridedSlice_apply _ _ _ _ (ix3 c (1 : Fin 2) k) (fun a => by
      match a with
      | ⟨0, _⟩ => exact (Nat.zero_add _).symm
      | ⟨1, _⟩ => rfl
      | ⟨2, _⟩ => exact (Nat.zero_add _).symm)

theorem kSS_apply (v0 : Vec Ideal S3x2x3 .f32) (c : Fin 3) :
    kSS v0 (ix1 c) = ∑ k : Fin 3, (pt v0 c 0 k - pt v0 c 1 k) * (pt v0 c 0 k - pt v0 c 1 k) := by
  unfold kSS
  refine (Ideal.multiReduction_add_single (mulf (kDiff v0) (kDiff v0)) _ reduces_S3x3_S3 _ _ (ix1 c)).trans ?_
  show (∑ k : Fin 3, mulf (kDiff v0) (kDiff v0) (reduces_S3x3_S3.lift (ix1 c) k)) = _
  refine Finset.sum_congr rfl fun k _ => ?_
  have e : (reduces_S3x3_S3.lift (ix1 c) k : S3x3.Idx) = ix2 c k := by
    funext a; match a with | ⟨0, _⟩ => rfl | ⟨1, _⟩ => rfl
  rw [e, mulf_apply, kDiff_apply]; rfl

theorem kScore_apply (v0 : Vec Ideal S3x2x3 .f32) (c : Fin 3) :
    kScore v0 (ix1 c) = Cert.Harm.score (pt v0 c 0) (pt v0 c 1) := by
  unfold kScore kDev Cert.Harm.score Cert.Harm.dev
  rw [mulf_apply, subf_apply, broadcast_apply]
  unfold sqrt
  rw [kSS_apply]
  rfl

/-- The stored row in terms of the score vector. -/
theorem pay_eq (v0 : Vec Ideal S3x2x3 .f32) (w0 w1 w2 : BitVec 32) :
    k0_pay1 (F := Ideal) v0 w0 w1 w2
      = addf (addf (addf (broadcast S1x16 (Scalar.ofBits .f32 0x00000000#32))
          (select (cmpi .eq (iota .tc S1x16 32 [1] iota_S1x16_d1_w32) (broadcast S1x16 w0))
            (broadcast S1x16 (extractAt ![0] (extractStridedSlice S1 ![0] (kScore v0) slices_S3_o0_S1) inpos_S1_p0)) (broadcast S1x16 (Scalar.ofBits .f32 0x00000000#32))))
          (select (cmpi .eq (iota .tc S1x16 32 [1] iota_S1x16_d1_w32) (broadcast S1x16 w1))
            (broadcast S1x16 (extractAt ![0] (extractStridedSlice S1 ![1] (kScore v0) slices_S3_o1_S1) inpos_S1_p0)) (broadcast S1x16 (Scalar.ofBits .f32 0x00000000#32))))
          (select (cmpi .eq (iota .tc S1x16 32 [1] iota_S1x16_d1_w32) (broadcast S1x16 w2))
            (broadcast S1x16 (extractAt ![0] (extractStridedSlice S1 ![2] (kScore v0) slices_S3_o2_S1) inpos_S1_p0)) (broadcast S1x16 (Scalar.ofBits .f32 0x00000000#32))) := rfl

/-- With the three pose words zero: the three scores summed at lane 0, zero elsewhere. -/
theorem pay_apply (v0 : Vec Ideal S3x2x3 .f32) (p : Fin 16) :
    k0_pay1 (F := Ideal) v0 (0#32 : BitVec 32) (0#32 : BitVec 32) (0#32 : BitVec 32) (ix2 (0 : Fin 1) p)
      = Cert.Harm.outRow (Cert.Harm.score (pt v0 0 0) (pt v0 0 1)) (Cert.Harm.score (pt v0 1 0) (pt v0 1 1)) (Cert.Harm.score (pt v0 2 0) (pt v0 2 1)) p := by
  rw [pay_eq]
  have h0 : extractAt ![0] (extractStridedSlice S1 ![0] (kScore v0) slices_S3_o0_S1) inpos_S1_p0 = kScore v0 (ix1 (0 : Fin 3)) := by
    unfold extractAt extractStridedSlice
    exact congrArg (kScore v0) (funext fun a => by match a with | ⟨0, _⟩ => rfl)
  have h1 : extractAt ![0] (extractStridedSlice S1 ![1] (kScore v0) slices_S3_o1_S1) inpos_S1_p0 = kScore v0 (ix1 (1 : Fin 3)) := by
    unfold extractAt extractStridedSlice
    exact congrArg (kScore v0) (funext fun a => by match a with | ⟨0, _⟩ => rfl)
  have h2 : extractAt ![0] (extractStridedSlice S1 ![2] (kScore v0) slices_S3_o2_S1) inpos_S1_p0 = kScore v0 (ix1 (2 : Fin 3)) := by
    unfold extractAt extractStridedSlice
    exact congrArg (kScore v0) (funext fun a => by match a with | ⟨0, _⟩ => rfl)
  simp only [addf_apply, select_apply, broadcast_apply, cmpi]
  rw [h0, h1, h2, kScore_apply, kScore_apply, kScore_apply, iota_single_apply]
  have hz : (FloatOps.ofBits .f32 0#32 : Ideal .f32) = (0 : EReal) := Ideal.ofBits_zero_f32
  rw [hz]
  unfold Cert.Harm.outRow
  by_cases hp : p.val = 0
  · have hc : IntOp.cmpi .eq (BitVec.ofNat 32 ((ix2 (0 : Fin 1) p : S1x16.Idx) 1).val) 0#32 = 1#1 := by
      show IntOp.cmpi .eq (BitVec.ofNat 32 p.val) 0#32 = 1#1
      rw [hp]; rfl
    rw [hc, if_pos hp, select_one, select_one, select_one, zero_add]
  · have hc : IntOp.cmpi .eq (BitVec.ofNat 32 ((ix2 (0 : Fin 1) p : S1x16.Idx) 1).val) 0#32 = 0#1 := by
      show IntOp.cmpi .eq (BitVec.ofNat 32 p.val) 0#32 = 0#1
      have := p.isLt
      unfold IntOp.cmpi
      have hne : (BitVec.ofNat 32 p.val == 0#32) = false := by
        apply beq_false_of_ne
        intro h
        have := congrArg BitVec.toNat h
        simp at this
        omega
      simp only [hne]; rfl
    rw [hc, if_neg hp, select_zero, select_zero, select_zero]
    simp

end Cert.KernelIdeal.KValue

end
-- ==== Proof.KernelValue.lean ====
/-
  The kernel's result array after the run.

  The grid has one point; the input window's block is the whole (3, 2, 3) array of atom rows and the output window's
  block the whole (1, 16) result.  At that point the body leaves in the output's staging buffer its one stored row, the
  payload of the loaded block and of the three pose words, which are zero; the pipeline writes the staging buffer back
  over the whole result array.  So the result array ends at the payload of `kAtoms` of the two arguments, and the
  arguments are left as they were.
-/
import proofs.«403794_j40054865002541_3_alg».proof.Proof.KernelHost
import proofs.«403794_j40054865002541_3_alg».proof.Proof.KernelPay
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- What the body leaves in the output's staging buffer, when the pose table holds zeros: the stored row of the loaded
    block at three zero pose words (the one store covers the buffer; the loads read whole buffers). -/
theorem out_A (c : Dev nD) (i : grid0.Coords) (a2 : Memref sig .tc .vmem S3x2x3 .f32) (h2 : a2.IsWhole)
    (a3 : Memref sig .tc .vmem S1x16 .f32) (h3 : a3.IsWhole) (x0 : Vec Ideal S3x2x3 .f32)
    (xt0 : TbBuf0 (F := Ideal) c tbM0_0) (hx : ∀ y, xt0 y = (0#32 : BitVec 32)) :
    out0_A_1 c i a2 h2 a3 h3 x0 xt0 = k0_pay1 x0 (0#32 : BitVec 32) (0#32 : BitVec 32) (0#32 : BitVec 32) := by
  obtain rfl : xt0 = fun _ => (0#32 : BitVec 32) := funext hx
  unfold out0_A_1
  rw [View.read_writes_eq_canon _ _ _ (cover0_A_1 c i a2 h2 a3 h3 x0 _)]
  unfold kernelRun0_A
  dsimp only
  sl_unfold_words
  rw [View.canon_unit_zero hz2]
  simp only [View.readAt_eq_ld, h2.read_unread, View.ld_unit_zero (S := S3x2x3) hz3]
  rfl

/-- The result array's contents after the run. -/
abbrev result (c : Dev nD) : Buf (Elt Ideal) ((c : Thread nD τ).loc main_v33) :=
  k0_pay1 (F := Ideal) (kAtoms (F := Ideal) (m ((c : Thread nD τ).loc main_arg0)) (m ((c : Thread nD τ).loc main_arg1)))
    (0#32 : BitVec 32) (0#32 : BitVec 32) (0#32 : BitVec 32)

/-- The input window's block at the one point is the whole staged array. -/
theorem iblk_eq (hO : Ok m) (c : Dev nD) (t : Fin (cfgM m hO).N) :
    (iblk m hO c 0 t : Vec Ideal S3x2x3 .f32) = V m c main_v32 := by
  unfold iblk
  have hz' : (fun a => ((cfgM m hO).win 0).index t a * main_v32.ty.shape.size a) = fun _ => 0 := funext fun a => by fin_cases a <;> rfl
  exact Memref.read_access_unit_zero (Elt Ideal) main_v32 hz' (fun a => by rw [congrFun hz' a]; simp) (V m c main_v32)

/-- The output window's one block is the whole (1, 16) array: read through it, contents come back as they are. -/
theorem read_blk1 (hO : Ok m) (c : Dev nD) (t : Fin (cfgM m hO).N) (f : Buf (Elt Ideal) ((c : Thread nD τ).loc main_v33)) :
    (((cfgM m hO).win 1).blk t).view.read (Elt Ideal) f = f := by
  have hz' : (fun a => ((cfgM m hO).win 1).index t a * main_v33.ty.shape.size a) = fun _ => 0 := funext fun a => by fin_cases a <;> rfl
  exact Memref.read_access_unit_zero (Elt Ideal) main_v33 hz' (fun a => by rw [congrFun hz' a]; simp) f

/-- What the output's staging buffer holds after the body at the one point. -/
theorem outsAt_eq (hO : Ok m) (c : Dev nD) (t : Fin (cfgM m hO).N) : outsAt0 m hO c t = result m c := by
  unfold outsAt0
  refine (out_A c (grid0.coords t) _ _ _ _ (iblk m hO c 0 t) (tbl m 0) (fun y => congrFun (tbl_eq m) y)).trans ?_
  exact congrArg (fun v : Vec Ideal S3x2x3 .f32 => k0_pay1 (F := Ideal) v (0#32 : BitVec 32) (0#32 : BitVec 32) (0#32 : BitVec 32))
    ((iblk_eq m hO c t).trans (V_atoms m c))

/-- The one write-back writes the result. -/
theorem flushed_eq (hO : Ok m) (c : Dev nD) (t : Fin (cfgM m hO).N) (hf : ((cfgM m hO).win 1).flush t = true) :
    (dats m hO 0 c).flushed 1 t = (((cfgM m hO).win 1).blk t).view.read (Elt Ideal) (result m c) := by
  show ((cfgM m hO).win 1).cut (grid0.coords t) ((dats m hO 0 c).after 1 t) = _
  refine (congrArg (((cfgM m hO).win 1).cut (grid0.coords t)) ((after0_1 m hO c t).trans (outsAt_eq m hO c t))).trans ?_
  exact (read_blk1 m hO c t (result m c)).symm

/-- The grid's one point. -/
def pt0 (hO : Ok m) : Fin (cfgM m hO).N := ⟨0, by show 0 < grid0.N; rw [N_0]; decide⟩

/-- So the result array ends holding the stored row: its one block, read back after the run, is the row's. -/
theorem final_o (hO : Ok m) (c : Dev nD) : (dats m hO 0 c).arrAt 1 (cfgM m hO).N = result m c :=
  (read_blk1 m hO c (pt0 m hO) ((dats m hO 0 c).arrAt 1 (cfgM m hO).N)).symm.trans
    (((dats m hO 0 c).read_blk_arrAt 1 (result m c) (flushed_eq m hO c) (pt0 m hO) (flush0_1 (adm m hO) (pt0 m hO))).trans
      (read_blk1 m hO c (pt0 m hO) (result m c)))

/-- The run, read: the result array at the stored row, the two arguments unchanged. -/
theorem run (hO : Ok m) : θ_run defs (onTc (τ := τ) (main (F := Ideal))) ⟨m, fun _ => 0, ρ⟩ fun r => ∀ c : Dev nD,
      r.2.mem ((c : Thread nD τ).loc main_v33) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1 1).trans (final_o m hO c),
      ((h c).2 main_arg0 (by decide : main_arg0 ∈ Pipeline.restRefs sig spec0)).trans (V_main_arg0 m c),
      ((h c).2 main_arg1 (by decide : main_arg1 ∈ Pipeline.restRefs sig spec0)).trans (V_main_arg1 m c)⟩)
    (run_main m ρ hO)

end Cert.KernelIdeal.KValue

end
-- ==== Proof.RefOps.lean ====
import proofs.«403794_j40054865002541_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The reference program's 120 host operations, in the order it runs them. -/
abbrev ops : List (HloOp τ sig (Elt F)) :=
  [ StableHlo.nullary main_c (fun i => lit0 (S3x4x2.rowMajor i)),
    StableHlo.nullary main_c_0 (constantI S3 32 0#32),
    StableHlo.unary main_c main_v0 ((extractStridedSlice S3x4x1 ![0, 0, 0] · slices_S3x4x2_S3x4x1_0_0_0) : (⟨S3x4x2, .i32⟩ : BufTy).Contents (Elt F) → (⟨S3x4x1, .i32⟩ : BufTy).Contents (Elt F)),
    StableHlo.reshape main_v0 main_v1 rfl shapeCasts_S3x4x1_S3x4,
    StableHlo.unary main_c main_v2 ((extractStridedSlice S3x4x1 ![0, 0, 1] · slices_S3x4x2_S3x4x1_0_0_1) : (⟨S3x4x2, .i32⟩ : BufTy).Contents (Elt F) → (⟨S3x4x1, .i32⟩ : BufTy).Contents (Elt F)),
    StableHlo.reshape main_v2 main_v3 rfl shapeCasts_S3x4x1_S3x4,
    StableHlo.unary main_c_0 main_v4 (broadcastInDim S3x1 ![0] bcast_S3_S3x1_0 : (⟨S3, .i32⟩ : BufTy).Contents (Elt F) → (⟨S3x1, .i32⟩ : BufTy).Contents (Elt F)),
    StableHlo.nullary main_c_1 (constantI S_ 32 0#32),
    StableHlo.unary main_c_1 main_v5 (broadcastInDim S3x1 ![] bcast_S_S3x1 : (⟨S_, .i32⟩ : BufTy).Contents (Elt F) → (⟨S3x1, .i32⟩ : BufTy).Contents (Elt F)),
    StableHlo.binary main_v4 main_v5 main_v6 (cmpi .slt : (⟨S3x1, .i32⟩ : BufTy).Contents (Elt F) → (⟨S3x1, .i32⟩ : BufTy).Contents (Elt F) → (⟨S3x1, .i1⟩ : BufTy).Contents (Elt F)),
    StableHlo.nullary main_c_2 (constantI S_ 32 16#32),
    StableHlo.unary main_c_2 main_v7 (broadcastInDim S3x1 ![] bcast_S_S3x1 : (⟨S_, .i32⟩ : BufTy).Contents (Elt F) → (⟨S3x1, .i32⟩ : BufTy).Contents (Elt F)),
    StableHlo.binary main_v4 main_v7 main_v8 (addi : (⟨S3x1, .i32⟩ : BufTy).Contents (Elt F) → (⟨S3x1, .i32⟩ : BufTy).Contents (Elt F) → (⟨S3x1, .i32⟩ : BufTy).Contents (Elt F)),
    StableHlo.ternary main_v6 main_v8 main_v4 main_v9 (select : (⟨S3x1, .i1⟩ : BufTy).Contents (Elt F) → (⟨S3x1, .i32⟩ : BufTy).Contents (Elt F) → (⟨S3x1, .i32⟩ : BufTy).Contents (Elt F) → (⟨S3x1, .i32⟩ : BufTy).Contents (Elt F)),
    StableHlo.nullary main_c_3 (constantI S_ 32 0#32),
    StableHlo.unary main_c_3 main_v10 (broadcastInDim S3x4 ![] bcast_S_S3x4 : (⟨S_, .i32⟩ : BufTy).Contents (Elt F) → (⟨S3x4, .i32⟩ : BufTy).Contents (Elt F)),
    StableHlo.binary main_v1 main_v10 main_v11 (cmpi .slt : (⟨S3x4, .i32⟩ : BufTy).Contents (Elt F) → (⟨S3x4, .i32⟩ : BufTy).Contents (Elt F) → (⟨S3x4, .i1⟩ : BufTy).Contents (Elt F)),
    StableHlo.nullary main_c_4 (constantI S_ 32 1024#32),
    StableHlo.unary main_c_4 main_v12 (broadcastInDim S3x4 ![] bcast_S_S3x4 : (⟨S_, .i32⟩ : BufTy).Contents (Elt F) → (⟨S3x4, .i32⟩ : BufTy).Contents (Elt F)),
    StableHlo.binary main_v1 main_v12 main_v13 (addi : (⟨S3x4, .i32⟩ : BufTy).Contents (Elt F) → (⟨S3x4, .i32⟩ : BufTy).Contents (Elt F) → (⟨S3x4, .i32⟩ : BufTy).Contents (Elt F)),
    StableHlo.ternary main_v11 main_v13 main_v1 main_v14 (select : (⟨S3x4, .i1⟩ : BufTy).Contents (Elt F) → (⟨S3x4, .i32⟩ : BufTy).Contents (Elt F) → (⟨S3x4, .i32⟩ : BufTy).Contents (Elt F) → (⟨S3x4, .i32⟩ : BufTy).Contents (Elt F)),
    StableHlo.unary main_v9 main_v15 (broadcastInDim S3x4 ![0, 1] bcast_S3x1_S3x4_0_1 : (⟨S3x1, .i32⟩ : BufTy).Contents (Elt F) → (⟨S3x4, .i32⟩ : BufTy).Contents (Elt F)),
    StableHlo.unary main_v15 main_v16 (broadcastInDim S3x4x1 ![0, 1] bcast_S3x4_S3x4x1_0_1 : (⟨S3x4, .i32⟩ : BufTy).Contents (Elt F) → (⟨S3x4x1, .i32⟩ : BufTy).Contents (Elt F)),
    StableHlo.unary main_v14 main_v17 (broadcastInDim S3x4x1 ![0, 1] bcast_S3x4_S3x4x1_0_1 : (⟨S3x4, .i32⟩ : BufTy).Contents (Elt F) → (⟨S3x4x1, .i32⟩ : BufTy).Contents (Elt F)),
    StableHlo.binary main_v16 main_v17 main_v18 ((fun a b => concatenate S3x4x2 2 [⟨S3x4x1, a⟩, ⟨S3x4x1, b⟩] concatenates_S3x4x1_S3x4x1_S3x4x2_d2) : (⟨S3x4x1, .i32⟩ : BufTy).Contents (Elt F) → (⟨S3x4x1, .i32⟩ : BufTy).Contents (Elt F) → (⟨S3x4x2, .i32⟩ : BufTy).Contents (Elt F)),
    StableHlo.binary main_arg1 main_v18 main_v19 ((fun x i => Host.gather gather_S16x1024_S3x4x2_S3x4_n_01_n_n_01_2_11 x i) : (⟨S16x1024, .i32⟩ : BufTy).Contents (Elt F) → (⟨S3x4x2, .i32⟩ : BufTy).Contents (Elt F) → (⟨S3x4, .i32⟩ : BufTy).Contents (Elt F)),
    StableHlo.binary main_v19 main_v3 main_v20 (addi : (⟨S3x4, .i32⟩ : BufTy).Contents (Elt F) → (⟨S3x4, .i32⟩ : BufTy).Contents (Elt F) → (⟨S3x4, .i32⟩ : BufTy).Contents (Elt F)),
    StableHlo.unary main_c_0 main_v21 (broadcastInDim S3x1 ![0] bcast_S3_S3x1_0 : (⟨S3, .i32⟩ : BufTy).Contents (Elt F) → (⟨S3x1, .i32⟩ : BufTy).Contents (Elt F)),
    StableHlo.nullary main_c_5 (constantI S_ 32 0#32),
    StableHlo.unary main_c_5 main_v22 (broadcastInDim S3x1 ![] bcast_S_S3x1 : (⟨S_, .i32⟩ : BufTy).Contents (Elt F) → (⟨S3x1, .i32⟩ : BufTy).Contents (Elt F)),
    StableHlo.binary main_v21 main_v22 main_v23 (cmpi .slt : (⟨S3x1, .i32⟩ : BufTy).Contents (Elt F) → (⟨S3x1, .i32⟩ : BufTy).Contents (Elt F) → (⟨S3x1, .i1⟩ : BufTy).Contents (Elt F)),
    StableHlo.nullary main_c_6 (constantI S_ 32 16#32),
    StableHlo.unary main_c_6 main_v24 (broadcastInDim S3x1 ![] bcast_S_S3x1 : (⟨S_, .i32⟩ : BufTy).Contents (Elt F) → (⟨S3x1, .i32⟩ : BufTy).Contents (Elt F)),
    StableHlo.binary main_v21 main_v24 main_v25 (addi : (⟨S3x1, .i32⟩ : BufTy).Contents (Elt F) → (⟨S3x1, .i32⟩ : BufTy).Contents (Elt F) → (⟨S3x1, .i32⟩ : BufTy).Contents (Elt F)),
    StableHlo.ternary main_v23 main_v25 main_v21 main_v26 (select : (⟨S3x1, .i1⟩ : BufTy).Contents (Elt F) → (⟨S3x1, .i32⟩ : BufTy).Contents (Elt F) → (⟨S3x1, .i32⟩ : BufTy).Contents (Elt F) → (⟨S3x1, .i32⟩ : BufTy).Contents (Elt F)),
    StableHlo.nullary main_c_7 (constantI S_ 32 0#32),
    StableHlo.unary main_c_7 main_v27 (broadcastInDim S3x4 ![] bcast_S_S3x4 : (⟨S_, .i32⟩ : BufTy).Contents (Elt F) → (⟨S3x4, .i32⟩ : BufTy).Contents (Elt F)),
    StableHlo.binary main_v20 main_v27 main_v28 (cmpi .slt : (⟨S3x4, .i32⟩ : BufTy).Contents (Elt F) → (⟨S3x4, .i32⟩ : BufTy).Contents (Elt F) → (⟨S3x4, .i1⟩ : BufTy).Contents (Elt F)),
    StableHlo.nullary main_c_8 (constantI S_ 32 16384#32),
    StableHlo.unary main_c_8 main_v29 (broadcastInDim S3x4 ![] bcast_S_S3x4 : (⟨S_, .i32⟩ : BufTy).Contents (Elt F) → (⟨S3x4, .i32⟩ : BufTy).Contents (Elt F)),
    StableHlo.binary main_v20 main_v29 main_v30 (addi : (⟨S3x4, .i32⟩ : BufTy).Contents (Elt F) → (⟨S3x4, .i32⟩ : BufTy).Contents (Elt F) → (⟨S3x4, .i32⟩ : BufTy).Contents (Elt F)),
    StableHlo.ternary main_v28 main_v30 main_v20 main_v31 (select : (⟨S3x4, .i1⟩ : BufTy).Contents (Elt F) → (⟨S3x4, .i32⟩ : BufTy).Contents (Elt F) → (⟨S3x4, .i32⟩ : BufTy).Contents (Elt F) → (⟨S3x4, .i32⟩ : BufTy).Contents (Elt F)),
    StableHlo.unary main_v26 main_v32 (broadcastInDim S3x4 ![0, 1] bcast_S3x1_S3x4_0_1 : (⟨S3x1, .i32⟩ : BufTy).Contents (Elt F) → (⟨S3x4, .i32⟩ : BufTy).Contents (Elt F)),
    StableHlo.unary main_v32 main_v33 (broadcastInDim S3x4x1 ![0, 1] bcast_S3x4_S3x4x1_0_1 : (⟨S3x4, .i32⟩ : BufTy).Contents (Elt F) → (⟨S3x4x1, .i32⟩ : BufTy).Contents (Elt F)),
    StableHlo.unary main_v31 main_v34 (broadcastInDim S3x4x1 ![0, 1] bcast_S3x4_S3x4x1_0_1 : (⟨S3x4, .i32⟩ : BufTy).Contents (Elt F) → (⟨S3x4x1, .i32⟩ : BufTy).Contents (Elt F)),
    StableHlo.binary main_v33 main_v34 main_v35 ((fun a b => concatenate S3x4x2 2 [⟨S3x4x1, a⟩, ⟨S3x4x1, b⟩] concatenates_S3x4x1_S3x4x1_S3x4x2_d2) : (⟨S3x4x1, .i32⟩ : BufTy).Contents (Elt F) → (⟨S3x4x1, .i32⟩ : BufTy).Contents (Elt F) → (⟨S3x4x2, .i32⟩ : BufTy).Contents (Elt F)),
    StableHlo.binary main_arg0 main_v35 main_v36 ((fun x i => Host.gather gather_S16x16384x3_S3x4x2_S3x4x3_2_01_n_n_01_2_113 x i) : (⟨S16x16384x3, .f32⟩ : BufTy).Contents (Elt F) → (⟨S3x4x2, .i32⟩ : BufTy).Contents (Elt F) → (⟨S3x4x3, .f32⟩ : BufTy).Contents (Elt F)),
    StableHlo.unary main_v36 main_v37 ((extractStridedSlice S3x1x3 ![0, 0, 0] · slices_S3x4x3_S3x1x3_0_0_0) : (⟨S3x4x3, .f32⟩ : BufTy).Contents (Elt F) → (⟨S3x1x3, .f32⟩ : BufTy).Contents (Elt F)),
    StableHlo.reshape main_v37 main_v38 rfl shapeCasts_S3x1x3_S3x3,
    StableHlo.unary main_v36 main_v39 ((extractStridedSlice S3x1x3 ![0, 1, 0] · slices_S3x4x3_S3x1x3_0_1_0) : (⟨S3x4x3, .f32⟩ : BufTy).Contents (Elt F) → (⟨S3x1x3, .f32⟩ : BufTy).Contents (Elt F)),
    StableHlo.reshape main_v39 main_v40 rfl shapeCasts_S3x1x3_S3x3,
    StableHlo.binary main_v38 main_v40 main_v41 (subf : (⟨S3x3, .f32⟩ : BufTy).Contents (Elt F) → (⟨S3x3, .f32⟩ : BufTy).Contents (Elt F) → (⟨S3x3, .f32⟩ : BufTy).Contents (Elt F)),
    StableHlo.binary main_v41 main_v41 main_v42 (mulf : (⟨S3x3, .f32⟩ : BufTy).Contents (Elt F) → (⟨S3x3, .f32⟩ : BufTy).Contents (Elt F) → (⟨S3x3, .f32⟩ : BufTy).Contents (Elt F)),
    StableHlo.nullary main_cst (constant S_ .f32 0x00000000#32),
    StableHlo.binary main_v42 main_cst main_v43 ((fun x v => Host.reduceAdd x v reducesTo_S3x3_S3_d1 h_S_) : (⟨S3x3, .f32⟩ : BufTy).Contents (Elt F) → (⟨S_, .f32⟩ : BufTy).Contents (Elt F) → (⟨S3, .f32⟩ : BufTy).Contents (Elt F)),
    StableHlo.unary main_v43 main_v44 (Host.sqrt : (⟨S3, .f32⟩ : BufTy).Contents (Elt F) → (⟨S3, .f32⟩ : BufTy).Contents (Elt F)),
    StableHlo.nullary main_cst_9 (constant S_ .f32 0x40800000#32),
    StableHlo.unary main_cst_9 main_v45 (broadcastInDim S3 ![] bcast_S_S3 : (⟨S_, .f32⟩ : BufTy).Contents (Elt F) → (⟨S3, .f32⟩ : BufTy).Contents (Elt F)),
    StableHlo.binary main_v44 main_v45 main_v46 (subf : (⟨S3, .f32⟩ : BufTy).Contents (Elt F) → (⟨S3, .f32⟩ : BufTy).Contents (Elt F) → (⟨S3, .f32⟩ : BufTy).Contents (Elt F)),
    StableHlo.binary main_v46 main_v46 main_v47 (mulf : (⟨S3, .f32⟩ : BufTy).Contents (Elt F) → (⟨S3, .f32⟩ : BufTy).Contents (Elt F) → (⟨S3, .f32⟩ : BufTy).Contents (Elt F)),
    StableHlo.nullary main_cst_10 (constant S_ .f32 0x00000000#32),
    StableHlo.unary main_cst_10 main_v48 (broadcastInDim S16777216 ![] bcast_S_S16777216 : (⟨S_, .f32⟩ : BufTy).Contents (Elt F) → (⟨S16777216, .f32⟩ : BufTy).Contents (Elt F)),
    StableHlo.nullary main_c_11 (constantI S_ 32 1024#32),
    StableHlo.unary main_c_11 main_v49 (broadcastInDim S3 ![] bcast_S_S3 : (⟨S_, .i32⟩ : BufTy).Contents (Elt F) → (⟨S3, .i32⟩ : BufTy).Contents (Elt F)),
    StableHlo.binary main_c_0 main_v49 main_v50 (muli : (⟨S3, .i32⟩ : BufTy).Contents (Elt F) → (⟨S3, .i32⟩ : BufTy).Contents (Elt F) → (⟨S3, .i32⟩ : BufTy).Contents (Elt F)),
    StableHlo.nullary main_c_12 (constantI S_ 32 1024#32),
    StableHlo.unary main_c_12 main_v51 (broadcastInDim S3 ![] bcast_S_S3 : (⟨S_, .i32⟩ : BufTy).Contents (Elt F) → (⟨S3, .i32⟩ : BufTy).Contents (Elt F)),
    StableHlo.binary main_v50 main_v51 main_v52 (muli : (⟨S3, .i32⟩ : BufTy).Contents (Elt F) → (⟨S3, .i32⟩ : BufTy).Contents (Elt F) → (⟨S3, .i32⟩ : BufTy).Contents (Elt F)),
    StableHlo.unary main_v1 main_v53 ((extractStridedSlice S3x1 ![0, 0] · slices_S3x4_S3x1_0_0) : (⟨S3x4, .i32⟩ : BufTy).Contents (Elt F) → (⟨S3x1, .i32⟩ : BufTy).Contents (Elt F)),
    StableHlo.reshape main_v53 main_v54 rfl shapeCasts_S3x1_S3,
    StableHlo.nullary main_c_13 (constantI S_ 32 1024#32),
    StableHlo.unary main_c_13 main_v55 (broadcastInDim S3 ![] bcast_S_S3 : (⟨S_, .i32⟩ : BufTy).Contents (Elt F) → (⟨S3, .i32⟩ : BufTy).Contents (Elt F)),
    StableHlo.binary main_v54 main_v55 main_v56 (muli : (⟨S3, .i32⟩ : BufTy).Contents (Elt F) → (⟨S3, .i32⟩ : BufTy).Contents (Elt F) → (⟨S3, .i32⟩ : BufTy).Contents (Elt F)),
    StableHlo.binary main_v52 main_v56 main_v57 (addi : (⟨S3, .i32⟩ : BufTy).Contents (Elt F) → (⟨S3, .i32⟩ : BufTy).Contents (Elt F) → (⟨S3, .i32⟩ : BufTy).Contents (Elt F)),
    StableHlo.unary main_v1 main_v58 ((extractStridedSlice S3x1 ![0, 1] · slices_S3x4_S3x1_0_1) : (⟨S3x4, .i32⟩ : BufTy).Contents (Elt F) → (⟨S3x1, .i32⟩ : BufTy).Contents (Elt F)),
    StableHlo.reshape main_v58 main_v59 rfl shapeCasts_S3x1_S3,
    StableHlo.binary main_v57 main_v59 main_v60 (addi : (⟨S3, .i32⟩ : BufTy).Contents (Elt F) → (⟨S3, .i32⟩ : BufTy).Contents (Elt F) → (⟨S3, .i32⟩ : BufTy).Contents (Elt F)),
    StableHlo.nullary main_c_14 (constantI S_ 32 1024#32),
    StableHlo.unary main_c_14 main_v61 (broadcastInDim S3 ![] bcast_S_S3 : (⟨S_, .i32⟩ : BufTy).Contents (Elt F) → (⟨S3, .i32⟩ : BufTy).Contents (Elt F)),
    StableHlo.binary main_c_0 main_v61 main_v62 (muli : (⟨S3, .i32⟩ : BufTy).Contents (Elt F) → (⟨S3, .i32⟩ : BufTy).Contents (Elt F) → (⟨S3, .i32⟩ : BufTy).Contents (Elt F)),
    StableHlo.nullary main_c_15 (constantI S_ 32 1024#32),
    StableHlo.unary main_c_15 main_v63 (broadcastInDim S3 ![] bcast_S_S3 : (⟨S_, .i32⟩ : BufTy).Contents (Elt F) → (⟨S3, .i32⟩ : BufTy).Contents (Elt F)),
    StableHlo.binary main_v62 main_v63 main_v64 (muli : (⟨S3, .i32⟩ : BufTy).Contents (Elt F) → (⟨S3, .i32⟩ : BufTy).Contents (Elt F) → (⟨S3, .i32⟩ : BufTy).Contents (Elt F)),
    StableHlo.unary main_v1 main_v65 ((extractStridedSlice S3x1 ![0, 1] · slices_S3x4_S3x1_0_1) : (⟨S3x4, .i32⟩ : BufTy).Contents (Elt F) → (⟨S3x1, .i32⟩ : BufTy).Contents (Elt F)),
    StableHlo.reshape main_v65 main_v66 rfl shapeCasts_S3x1_S3,
    StableHlo.nullary main_c_16 (constantI S_ 32 1024#32),
    StableHlo.unary main_c_16 main_v67 (broadcastInDim S3 ![] bcast_S_S3 : (⟨S_, .i32⟩ : BufTy).Contents (Elt F) → (⟨S3, .i32⟩ : BufTy).Contents (Elt F)),
    StableHlo.binary main_v66 main_v67 main_v68 (muli : (⟨S3, .i32⟩ : BufTy).Contents (Elt F) → (⟨S3, .i32⟩ : BufTy).Contents (Elt F) → (⟨S3, .i32⟩ : BufTy).Contents (Elt F)),
    StableHlo.binary main_v64 main_v68 main_v69 (addi : (⟨S3, .i32⟩ : BufTy).Contents (Elt F) → (⟨S3, .i32⟩ : BufTy).Contents (Elt F) → (⟨S3, .i32⟩ : BufTy).Contents (Elt F)),
    StableHlo.unary main_v1 main_v70 ((extractStridedSlice S3x1 ![0, 0] · slices_S3x4_S3x1_0_0) : (⟨S3x4, .i32⟩ : BufTy).Contents (Elt F) → (⟨S3x1, .i32⟩ : BufTy).Contents (Elt F)),
    StableHlo.reshape main_v70 main_v71 rfl shapeCasts_S3x1_S3,
    StableHlo.binary main_v69 main_v71 main_v72 (addi : (⟨S3, .i32⟩ : BufTy).Contents (Elt F) → (⟨S3, .i32⟩ : BufTy).Contents (Elt F) → (⟨S3, .i32⟩ : BufTy).Contents (Elt F)),
    StableHlo.nullary main_cst_17 (constant S_ .f32 0x3F000000#32),
    StableHlo.unary main_cst_17 main_v73 (broadcastInDim S3 ![] bcast_S_S3 : (⟨S_, .f32⟩ : BufTy).Contents (Elt F) → (⟨S3, .f32⟩ : BufTy).Contents (Elt F)),
    StableHlo.binary main_v47 main_v73 main_v74 (mulf : (⟨S3, .f32⟩ : BufTy).Contents (Elt F) → (⟨S3, .f32⟩ : BufTy).Contents (Elt F) → (⟨S3, .f32⟩ : BufTy).Contents (Elt F)),
    StableHlo.nullary main_c_18 (constantI S_ 32 0#32),
    StableHlo.unary main_c_18 main_v75 (broadcastInDim S3 ![] bcast_S_S3 : (⟨S_, .i32⟩ : BufTy).Contents (Elt F) → (⟨S3, .i32⟩ : BufTy).Contents (Elt F)),
    StableHlo.binary main_v60 main_v75 main_v76 (cmpi .slt : (⟨S3, .i32⟩ : BufTy).Contents (Elt F) → (⟨S3, .i32⟩ : BufTy).Contents (Elt F) → (⟨S3, .i1⟩ : BufTy).Contents (Elt F)),
    StableHlo.nullary main_c_19 (constantI S_ 32 16777216#32),
    StableHlo.unary main_c_19 main_v77 (broadcastInDim S3 ![] bcast_S_S3 : (⟨S_, .i32⟩ : BufTy).Contents (Elt F) → (⟨S3, .i32⟩ : BufTy).Contents (Elt F)),
    StableHlo.binary main_v60 main_v77 main_v78 (addi : (⟨S3, .i32⟩ : BufTy).Contents (Elt F) → (⟨S3, .i32⟩ : BufTy).Contents (Elt F) → (⟨S3, .i32⟩ : BufTy).Contents (Elt F)),
    StableHlo.ternary main_v76 main_v78 main_v60 main_v79 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.unary main_v79 main_v80 (broadcastInDim S3x1 ![0] bcast_S3_S3x1_0 : (⟨S3, .i32⟩ : BufTy).Contents (Elt F) → (⟨S3x1, .i32⟩ : BufTy).Contents (Elt F)),
    StableHlo.ternary main_v48 main_v80 main_v74 main_v81 ((fun x i u => Host.scatterAdd scatter_S16777216_S3x1_S3_n_0_0_1 x i u) : (⟨S16777216, .f32⟩ : BufTy).Contents (Elt F) → (⟨S3x1, .i32⟩ : BufTy).Contents (Elt F) → (⟨S3, .f32⟩ : BufTy).Contents (Elt F) → (⟨S16777216, .f32⟩ : BufTy).Contents (Elt F)),
    StableHlo.nullary main_cst_20 (constant S_ .f32 0x3F000000#32),
    StableHlo.unary main_cst_20 main_v82 (broadcastInDim S3 ![] bcast_S_S3 : (⟨S_, .f32⟩ : BufTy).Contents (Elt F) → (⟨S3, .f32⟩ : BufTy).Contents (Elt F)),
    StableHlo.binary main_v47 main_v82 main_v83 (mulf : (⟨S3, .f32⟩ : BufTy).Contents (Elt F) → (⟨S3, .f32⟩ : BufTy).Contents (Elt F) → (⟨S3, .f32⟩ : BufTy).Contents (Elt F)),
    StableHlo.nullary main_c_21 (constantI S_ 32 0#32),
    StableHlo.unary main_c_21 main_v84 (broadcastInDim S3 ![] bcast_S_S3 : (⟨S_, .i32⟩ : BufTy).Contents (Elt F) → (⟨S3, .i32⟩ : BufTy).Contents (Elt F)),
    StableHlo.binary main_v72 main_v84 main_v85 (cmpi .slt : (⟨S3, .i32⟩ : BufTy).Contents (Elt F) → (⟨S3, .i32⟩ : BufTy).Contents (Elt F) → (⟨S3, .i1⟩ : BufTy).Contents (Elt F)),
    StableHlo.nullary main_c_22 (constantI S_ 32 16777216#32),
    StableHlo.unary main_c_22 main_v86 (broadcastInDim S3 ![] bcast_S_S3 : (⟨S_, .i32⟩ : BufTy).Contents (Elt F) → (⟨S3, .i32⟩ : BufTy).Contents (Elt F)),
    StableHlo.binary main_v72 main_v86 main_v87 (addi : (⟨S3, .i32⟩ : BufTy).Contents (Elt F) → (⟨S3, .i32⟩ : BufTy).Contents (Elt F) → (⟨S3, .i32⟩ : BufTy).Contents (Elt F)),
    StableHlo.ternary main_v85 main_v87 main_v72 main_v88 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.unary main_v88 main_v89 (broadcastInDim S3x1 ![0] bcast_S3_S3x1_0 : (⟨S3, .i32⟩ : BufTy).Contents (Elt F) → (⟨S3x1, .i32⟩ : BufTy).Contents (Elt F)),
    StableHlo.ternary main_v81 main_v89 main_v83 main_v90 ((fun x i u => Host.scatterAdd scatter_S16777216_S3x1_S3_n_0_0_1 x i u) : (⟨S16777216, .f32⟩ : BufTy).Contents (Elt F) → (⟨S3x1, .i32⟩ : BufTy).Contents (Elt F) → (⟨S3, .f32⟩ : BufTy).Contents (Elt F) → (⟨S16777216, .f32⟩ : BufTy).Contents (Elt F)),
    StableHlo.reshape main_v90 main_v91 rfl shapeCasts_S16777216_S16x1024x1024,
    StableHlo.nullary main_cst_23 (constant S_ .f32 0x00000000#32),
    StableHlo.binary main_v91 main_cst_23 main_v92 ((fun x v => Host.reduceAdd x v reducesTo_S16x1024x1024_S16_d1_2 h_S_) : (⟨S16x1024x1024, .f32⟩ : BufTy).Contents (Elt F) → (⟨S_, .f32⟩ : BufTy).Contents (Elt F) → (⟨S16, .f32⟩ : BufTy).Contents (Elt F)),
    StableHlo.unary main_v92 main_v93 (broadcastInDim S1x16 ![1] bcast_S16_S1x16_1 : (⟨S16, .f32⟩ : BufTy).Contents (Elt F) → (⟨S1x16, .f32⟩ : BufTy).Contents (Elt F)) ]

/-! The same list cut before and after each of its two concatenations: five consecutive stretches. -/

/-- Operations 1 to 24. -/
abbrev opsA : List (HloOp τ sig (Elt F)) :=
  [ StableHlo.nullary main_c (fun i => lit0 (S3x4x2.rowMajor i)),
    StableHlo.nullary main_c_0 (constantI S3 32 0#32),
    StableHlo.unary main_c main_v0 ((extractStridedSlice S3x4x1 ![0, 0, 0] · slices_S3x4x2_S3x4x1_0_0_0) : (⟨S3x4x2, .i32⟩ : BufTy).Contents (Elt F) → (⟨S3x4x1, .i32⟩ : BufTy).Contents (Elt F)),
    StableHlo.reshape main_v0 main_v1 rfl shapeCasts_S3x4x1_S3x4,
    StableHlo.unary main_c main_v2 ((extractStridedSlice S3x4x1 ![0, 0, 1] · slices_S3x4x2_S3x4x1_0_0_1) : (⟨S3x4x2, .i32⟩ : BufTy).Contents (Elt F) → (⟨S3x4x1, .i32⟩ : BufTy).Contents (Elt F)),
    StableHlo.reshape main_v2 main_v3 rfl shapeCasts_S3x4x1_S3x4,
    StableHlo.unary main_c_0 main_v4 (broadcastInDim S3x1 ![0] bcast_S3_S3x1_0 : (⟨S3, .i32⟩ : BufTy).Contents (Elt F) → (⟨S3x1, .i32⟩ : BufTy).Contents (Elt F)),
    StableHlo.nullary main_c_1 (constantI S_ 32 0#32),
    StableHlo.unary main_c_1 main_v5 (broadcastInDim S3x1 ![] bcast_S_S3x1 : (⟨S_, .i32⟩ : BufTy).Contents (Elt F) → (⟨S3x1, .i32⟩ : BufTy).Contents (Elt F)),
    StableHlo.binary main_v4 main_v5 main_v6 (cmpi .slt : (⟨S3x1, .i32⟩ : BufTy).Contents (Elt F) → (⟨S3x1, .i32⟩ : BufTy).Contents (Elt F) → (⟨S3x1, .i1⟩ : BufTy).Contents (Elt F)),
    StableHlo.nullary main_c_2 (constantI S_ 32 16#32),
    StableHlo.unary main_c_2 main_v7 (broadcastInDim S3x1 ![] bcast_S_S3x1 : (⟨S_, .i32⟩ : BufTy).Contents (Elt F) → (⟨S3x1, .i32⟩ : BufTy).Contents (Elt F)),
    StableHlo.binary main_v4 main_v7 main_v8 (addi : (⟨S3x1, .i32⟩ : BufTy).Contents (Elt F) → (⟨S3x1, .i32⟩ : BufTy).Contents (Elt F) → (⟨S3x1, .i32⟩ : BufTy).Contents (Elt F)),
    StableHlo.ternary main_v6 main_v8 main_v4 main_v9 (select : (⟨S3x1, .i1⟩ : BufTy).Contents (Elt F) → (⟨S3x1, .i32⟩ : BufTy).Contents (Elt F) → (⟨S3x1, .i32⟩ : BufTy).Contents (Elt F) → (⟨S3x1, .i32⟩ : BufTy).Contents (Elt F)),
    StableHlo.nullary main_c_3 (constantI S_ 32 0#32),
    StableHlo.unary main_c_3 main_v10 (broadcastInDim S3x4 ![] bcast_S_S3x4 : (⟨S_, .i32⟩ : BufTy).Contents (Elt F) → (⟨S3x4, .i32⟩ : BufTy).Contents (Elt F)),
    StableHlo.binary main_v1 main_v10 main_v11 (cmpi .slt : (⟨S3x4, .i32⟩ : BufTy).Contents (Elt F) → (⟨S3x4, .i32⟩ : BufTy).Contents (Elt F) → (⟨S3x4, .i1⟩ : BufTy).Contents (Elt F)),
    StableHlo.nullary main_c_4 (constantI S_ 32 1024#32),
    StableHlo.unary main_c_4 main_v12 (broadcastInDim S3x4 ![] bcast_S_S3x4 : (⟨S_, .i32⟩ : BufTy).Contents (Elt F) → (⟨S3x4, .i32⟩ : BufTy).Contents (Elt F)),
    StableHlo.binary main_v1 main_v12 main_v13 (addi : (⟨S3x4, .i32⟩ : BufTy).Contents (Elt F) → (⟨S3x4, .i32⟩ : BufTy).Contents (Elt F) → (⟨S3x4, .i32⟩ : BufTy).Contents (Elt F)),
    StableHlo.ternary main_v11 main_v13 main_v1 main_v14 (select : (⟨S3x4, .i1⟩ : BufTy).Contents (Elt F) → (⟨S3x4, .i32⟩ : BufTy).Contents (Elt F) → (⟨S3x4, .i32⟩ : BufTy).Contents (Elt F) → (⟨S3x4, .i32⟩ : BufTy).Contents (Elt F)),
    StableHlo.unary main_v9 main_v15 (broadcastInDim S3x4 ![0, 1] bcast_S3x1_S3x4_0_1 : (⟨S3x1, .i32⟩ : BufTy).Contents (Elt F) → (⟨S3x4, .i32⟩ : BufTy).Contents (Elt F)),
    StableHlo.unary main_v15 main_v16 (broadcastInDim S3x4x1 ![0, 1] bcast_S3x4_S3x4x1_0_1 : (⟨S3x4, .i32⟩ : BufTy).Contents (Elt F) → (⟨S3x4x1, .i32⟩ : BufTy).Contents (Elt F)),
    StableHlo.unary main_v14 main_v17 (broadcastInDim S3x4x1 ![0, 1] bcast_S3x4_S3x4x1_0_1 : (⟨S3x4, .i32⟩ : BufTy).Contents (Elt F) → (⟨S3x4x1, .i32⟩ : BufTy).Contents (Elt F)) ]

/-- Operations 25 to 25. -/
abbrev opsB : List (HloOp τ sig (Elt F)) :=
  [ StableHlo.binary main_v16 main_v17 main_v18 ((fun a b => concatenate S3x4x2 2 [⟨S3x4x1, a⟩, ⟨S3x4x1, b⟩] concatenates_S3x4x1_S3x4x1_S3x4x2_d2) : (⟨S3x4x1, .i32⟩ : BufTy).Contents (Elt F) → (⟨S3x4x1, .i32⟩ : BufTy).Contents (Elt F) → (⟨S3x4x2, .i32⟩ : BufTy).Contents (Elt F)) ]

/-- Operations 26 to 45. -/
abbrev opsC : List (HloOp τ sig (Elt F)) :=
  [ StableHlo.binary main_arg1 main_v18 main_v19 ((fun x i => Host.gather gather_S16x1024_S3x4x2_S3x4_n_01_n_n_01_2_11 x i) : (⟨S16x1024, .i32⟩ : BufTy).Contents (Elt F) → (⟨S3x4x2, .i32⟩ : BufTy).Contents (Elt F) → (⟨S3x4, .i32⟩ : BufTy).Contents (Elt F)),
    StableHlo.binary main_v19 main_v3 main_v20 (addi : (⟨S3x4, .i32⟩ : BufTy).Contents (Elt F) → (⟨S3x4, .i32⟩ : BufTy).Contents (Elt F) → (⟨S3x4, .i32⟩ : BufTy).Contents (Elt F)),
    StableHlo.unary main_c_0 main_v21 (broadcastInDim S3x1 ![0] bcast_S3_S3x1_0 : (⟨S3, .i32⟩ : BufTy).Contents (Elt F) → (⟨S3x1, .i32⟩ : BufTy).Contents (Elt F)),
    StableHlo.nullary main_c_5 (constantI S_ 32 0#32),
    StableHlo.unary main_c_5 main_v22 (broadcastInDim S3x1 ![] bcast_S_S3x1 : (⟨S_, .i32⟩ : BufTy).Contents (Elt F) → (⟨S3x1, .i32⟩ : BufTy).Contents (Elt F)),
    StableHlo.binary main_v21 main_v22 main_v23 (cmpi .slt : (⟨S3x1, .i32⟩ : BufTy).Contents (Elt F) → (⟨S3x1, .i32⟩ : BufTy).Contents (Elt F) → (⟨S3x1, .i1⟩ : BufTy).Contents (Elt F)),
    StableHlo.nullary main_c_6 (constantI S_ 32 16#32),
    StableHlo.unary main_c_6 main_v24 (broadcastInDim S3x1 ![] bcast_S_S3x1 : (⟨S_, .i32⟩ : BufTy).Contents (Elt F) → (⟨S3x1, .i32⟩ : BufTy).Contents (Elt F)),
    StableHlo.binary main_v21 main_v24 main_v25 (addi : (⟨S3x1, .i32⟩ : BufTy).Contents (Elt F) → (⟨S3x1, .i32⟩ : BufTy).Contents (Elt F) → (⟨S3x1, .i32⟩ : BufTy).Contents (Elt F)),
    StableHlo.ternary main_v23 main_v25 main_v21 main_v26 (select : (⟨S3x1, .i1⟩ : BufTy).Contents (Elt F) → (⟨S3x1, .i32⟩ : BufTy).Contents (Elt F) → (⟨S3x1, .i32⟩ : BufTy).Contents (Elt F) → (⟨S3x1, .i32⟩ : BufTy).Contents (Elt F)),
    StableHlo.nullary main_c_7 (constantI S_ 32 0#32),
    StableHlo.unary main_c_7 main_v27 (broadcastInDim S3x4 ![] bcast_S_S3x4 : (⟨S_, .i32⟩ : BufTy).Contents (Elt F) → (⟨S3x4, .i32⟩ : BufTy).Contents (Elt F)),
    StableHlo.binary main_v20 main_v27 main_v28 (cmpi .slt : (⟨S3x4, .i32⟩ : BufTy).Contents (Elt F) → (⟨S3x4, .i32⟩ : BufTy).Contents (Elt F) → (⟨S3x4, .i1⟩ : BufTy).Contents (Elt F)),
    StableHlo.nullary main_c_8 (constantI S_ 32 16384#32),
    StableHlo.unary main_c_8 main_v29 (broadcastInDim S3x4 ![] bcast_S_S3x4 : (⟨S_, .i32⟩ : BufTy).Contents (Elt F) → (⟨S3x4, .i32⟩ : BufTy).Contents (Elt F)),
    StableHlo.binary main_v20 main_v29 main_v30 (addi : (⟨S3x4, .i32⟩ : BufTy).Contents (Elt F) → (⟨S3x4, .i32⟩ : BufTy).Contents (Elt F) → (⟨S3x4, .i32⟩ : BufTy).Contents (Elt F)),
    StableHlo.ternary main_v28 main_v30 main_v20 main_v31 (select : (⟨S3x4, .i1⟩ : BufTy).Contents (Elt F) → (⟨S3x4, .i32⟩ : BufTy).Contents (Elt F) → (⟨S3x4, .i32⟩ : BufTy).Contents (Elt F) → (⟨S3x4, .i32⟩ : BufTy).Contents (Elt F)),
    StableHlo.unary main_v26 main_v32 (broadcastInDim S3x4 ![0, 1] bcast_S3x1_S3x4_0_1 : (⟨S3x1, .i32⟩ : BufTy).Contents (Elt F) → (⟨S3x4, .i32⟩ : BufTy).Contents (Elt F)),
    StableHlo.unary main_v32 main_v33 (broadcastInDim S3x4x1 ![0, 1] bcast_S3x4_S3x4x1_0_1 : (⟨S3x4, .i32⟩ : BufTy).Contents (Elt F) → (⟨S3x4x1, .i32⟩ : BufTy).Contents (Elt F)),
    StableHlo.unary main_v31 main_v34 (broadcastInDim S3x4x1 ![0, 1] bcast_S3x4_S3x4x1_0_1 : (⟨S3x4, .i32⟩ : BufTy).Contents (Elt F) → (⟨S3x4x1, .i32⟩ : BufTy).Contents (Elt F)) ]

/-- Operations 46 to 46. -/
abbrev opsD : List (HloOp τ sig (Elt F)) :=
  [ StableHlo.binary main_v33 main_v34 main_v35 ((fun a b => concatenate S3x4x2 2 [⟨S3x4x1, a⟩, ⟨S3x4x1, b⟩] concatenates_S3x4x1_S3x4x1_S3x4x2_d2) : (⟨S3x4x1, .i32⟩ : BufTy).Contents (Elt F) → (⟨S3x4x1, .i32⟩ : BufTy).Contents (Elt F) → (⟨S3x4x2, .i32⟩ : BufTy).Contents (Elt F)) ]

/-- Operations 47 to 120. -/
abbrev opsE : List (HloOp τ sig (Elt F)) :=
  [ StableHlo.binary main_arg0 main_v35 main_v36 ((fun x i => Host.gather gather_S16x16384x3_S3x4x2_S3x4x3_2_01_n_n_01_2_113 x i) : (⟨S16x16384x3, .f32⟩ : BufTy).Contents (Elt F) → (⟨S3x4x2, .i32⟩ : BufTy).Contents (Elt F) → (⟨S3x4x3, .f32⟩ : BufTy).Contents (Elt F)),
    StableHlo.unary main_v36 main_v37 ((extractStridedSlice S3x1x3 ![0, 0, 0] · slices_S3x4x3_S3x1x3_0_0_0) : (⟨S3x4x3, .f32⟩ : BufTy).Contents (Elt F) → (⟨S3x1x3, .f32⟩ : BufTy).Contents (Elt F)),
    StableHlo.reshape main_v37 main_v38 rfl shapeCasts_S3x1x3_S3x3,
    StableHlo.unary main_v36 main_v39 ((extractStridedSlice S3x1x3 ![0, 1, 0] · slices_S3x4x3_S3x1x3_0_1_0) : (⟨S3x4x3, .f32⟩ : BufTy).Contents (Elt F) → (⟨S3x1x3, .f32⟩ : BufTy).Contents (Elt F)),
    StableHlo.reshape main_v39 main_v40 rfl shapeCasts_S3x1x3_S3x3,
    StableHlo.binary main_v38 main_v40 main_v41 (subf : (⟨S3x3, .f32⟩ : BufTy).Contents (Elt F) → (⟨S3x3, .f32⟩ : BufTy).Contents (Elt F) → (⟨S3x3, .f32⟩ : BufTy).Contents (Elt F)),
    StableHlo.binary main_v41 main_v41 main_v42 (mulf : (⟨S3x3, .f32⟩ : BufTy).Contents (Elt F) → (⟨S3x3, .f32⟩ : BufTy).Contents (Elt F) → (⟨S3x3, .f32⟩ : BufTy).Contents (Elt F)),
    StableHlo.nullary main_cst (constant S_ .f32 0x00000000#32),
    StableHlo.binary main_v42 main_cst main_v43 ((fun x v => Host.reduceAdd x v reducesTo_S3x3_S3_d1 h_S_) : (⟨S3x3, .f32⟩ : BufTy).Contents (Elt F) → (⟨S_, .f32⟩ : BufTy).Contents (Elt F) → (⟨S3, .f32⟩ : BufTy).Contents (Elt F)),
    StableHlo.unary main_v43 main_v44 (Host.sqrt : (⟨S3, .f32⟩ : BufTy).Contents (Elt F) → (⟨S3, .f32⟩ : BufTy).Contents (Elt F)),
    StableHlo.nullary main_cst_9 (constant S_ .f32 0x40800000#32),
    StableHlo.unary main_cst_9 main_v45 (broadcastInDim S3 ![] bcast_S_S3 : (⟨S_, .f32⟩ : BufTy).Contents (Elt F) → (⟨S3, .f32⟩ : BufTy).Contents (Elt F)),
    StableHlo.binary main_v44 main_v45 main_v46 (subf : (⟨S3, .f32⟩ : BufTy).Contents (Elt F) → (⟨S3, .f32⟩ : BufTy).Contents (Elt F) → (⟨S3, .f32⟩ : BufTy).Contents (Elt F)),
    StableHlo.binary main_v46 main_v46 main_v47 (mulf : (⟨S3, .f32⟩ : BufTy).Contents (Elt F) → (⟨S3, .f32⟩ : BufTy).Contents (Elt F) → (⟨S3, .f32⟩ : BufTy).Contents (Elt F)),
    StableHlo.nullary main_cst_10 (constant S_ .f32 0x00000000#32),
    StableHlo.unary main_cst_10 main_v48 (broadcastInDim S16777216 ![] bcast_S_S16777216 : (⟨S_, .f32⟩ : BufTy).Contents (Elt F) → (⟨S16777216, .f32⟩ : BufTy).Contents (Elt F)),
    StableHlo.nullary main_c_11 (constantI S_ 32 1024#32),
    StableHlo.unary main_c_11 main_v49 (broadcastInDim S3 ![] bcast_S_S3 : (⟨S_, .i32⟩ : BufTy).Contents (Elt F) → (⟨S3, .i32⟩ : BufTy).Contents (Elt F)),
    StableHlo.binary main_c_0 main_v49 main_v50 (muli : (⟨S3, .i32⟩ : BufTy).Contents (Elt F) → (⟨S3, .i32⟩ : BufTy).Contents (Elt F) → (⟨S3, .i32⟩ : BufTy).Contents (Elt F)),
    StableHlo.nullary main_c_12 (constantI S_ 32 1024#32),
    StableHlo.unary main_c_12 main_v51 (broadcastInDim S3 ![] bcast_S_S3 : (⟨S_, .i32⟩ : BufTy).Contents (Elt F) → (⟨S3, .i32⟩ : BufTy).Contents (Elt F)),
    StableHlo.binary main_v50 main_v51 main_v52 (muli : (⟨S3, .i32⟩ : BufTy).Contents (Elt F) → (⟨S3, .i32⟩ : BufTy).Contents (Elt F) → (⟨S3, .i32⟩ : BufTy).Contents (Elt F)),
    StableHlo.unary main_v1 main_v53 ((extractStridedSlice S3x1 ![0, 0] · slices_S3x4_S3x1_0_0) : (⟨S3x4, .i32⟩ : BufTy).Contents (Elt F) → (⟨S3x1, .i32⟩ : BufTy).Contents (Elt F)),
    StableHlo.reshape main_v53 main_v54 rfl shapeCasts_S3x1_S3,
    StableHlo.nullary main_c_13 (constantI S_ 32 1024#32),
    StableHlo.unary main_c_13 main_v55 (broadcastInDim S3 ![] bcast_S_S3 : (⟨S_, .i32⟩ : BufTy).Contents (Elt F) → (⟨S3, .i32⟩ : BufTy).Contents (Elt F)),
    StableHlo.binary main_v54 main_v55 main_v56 (muli : (⟨S3, .i32⟩ : BufTy).Contents (Elt F) → (⟨S3, .i32⟩ : BufTy).Contents (Elt F) → (⟨S3, .i32⟩ : BufTy).Contents (Elt F)),
    StableHlo.binary main_v52 main_v56 main_v57 (addi : (⟨S3, .i32⟩ : BufTy).Contents (Elt F) → (⟨S3, .i32⟩ : BufTy).Contents (Elt F) → (⟨S3, .i32⟩ : BufTy).Contents (Elt F)),
    StableHlo.unary main_v1 main_v58 ((extractStridedSlice S3x1 ![0, 1] · slices_S3x4_S3x1_0_1) : (⟨S3x4, .i32⟩ : BufTy).Contents (Elt F) → (⟨S3x1, .i32⟩ : BufTy).Contents (Elt F)),
    StableHlo.reshape main_v58 main_v59 rfl shapeCasts_S3x1_S3,
    StableHlo.binary main_v57 main_v59 main_v60 (addi : (⟨S3, .i32⟩ : BufTy).Contents (Elt F) → (⟨S3, .i32⟩ : BufTy).Contents (Elt F) → (⟨S3, .i32⟩ : BufTy).Contents (Elt F)),
    StableHlo.nullary main_c_14 (constantI S_ 32 1024#32),
    StableHlo.unary main_c_14 main_v61 (broadcastInDim S3 ![] bcast_S_S3 : (⟨S_, .i32⟩ : BufTy).Contents (Elt F) → (⟨S3, .i32⟩ : BufTy).Contents (Elt F)),
    StableHlo.binary main_c_0 main_v61 main_v62 (muli : (⟨S3, .i32⟩ : BufTy).Contents (Elt F) → (⟨S3, .i32⟩ : BufTy).Contents (Elt F) → (⟨S3, .i32⟩ : BufTy).Contents (Elt F)),
    StableHlo.nullary main_c_15 (constantI S_ 32 1024#32),
    StableHlo.unary main_c_15 main_v63 (broadcastInDim S3 ![] bcast_S_S3 : (⟨S_, .i32⟩ : BufTy).Contents (Elt F) → (⟨S3, .i32⟩ : BufTy).Contents (Elt F)),
    StableHlo.binary main_v62 main_v63 main_v64 (muli : (⟨S3, .i32⟩ : BufTy).Contents (Elt F) → (⟨S3, .i32⟩ : BufTy).Contents (Elt F) → (⟨S3, .i32⟩ : BufTy).Contents (Elt F)),
    StableHlo.unary main_v1 main_v65 ((extractStridedSlice S3x1 ![0, 1] · slices_S3x4_S3x1_0_1) : (⟨S3x4, .i32⟩ : BufTy).Contents (Elt F) → (⟨S3x1, .i32⟩ : BufTy).Contents (Elt F)),
    StableHlo.reshape main_v65 main_v66 rfl shapeCasts_S3x1_S3,
    StableHlo.nullary main_c_16 (constantI S_ 32 1024#32),
    StableHlo.unary main_c_16 main_v67 (broadcastInDim S3 ![] bcast_S_S3 : (⟨S_, .i32⟩ : BufTy).Contents (Elt F) → (⟨S3, .i32⟩ : BufTy).Contents (Elt F)),
    StableHlo.binary main_v66 main_v67 main_v68 (muli : (⟨S3, .i32⟩ : BufTy).Contents (Elt F) → (⟨S3, .i32⟩ : BufTy).Contents (Elt F) → (⟨S3, .i32⟩ : BufTy).Contents (Elt F)),
    StableHlo.binary main_v64 main_v68 main_v69 (addi : (⟨S3, .i32⟩ : BufTy).Contents (Elt F) → (⟨S3, .i32⟩ : BufTy).Contents (Elt F) → (⟨S3, .i32⟩ : BufTy).Contents (Elt F)),
    StableHlo.unary main_v1 main_v70 ((extractStridedSlice S3x1 ![0, 0] · slices_S3x4_S3x1_0_0) : (⟨S3x4, .i32⟩ : BufTy).Contents (Elt F) → (⟨S3x1, .i32⟩ : BufTy).Contents (Elt F)),
    StableHlo.reshape main_v70 main_v71 rfl shapeCasts_S3x1_S3,
    StableHlo.binary main_v69 main_v71 main_v72 (addi : (⟨S3, .i32⟩ : BufTy).Contents (Elt F) → (⟨S3, .i32⟩ : BufTy).Contents (Elt F) → (⟨S3, .i32⟩ : BufTy).Contents (Elt F)),
    StableHlo.nullary main_cst_17 (constant S_ .f32 0x3F000000#32),
    StableHlo.unary main_cst_17 main_v73 (broadcastInDim S3 ![] bcast_S_S3 : (⟨S_, .f32⟩ : BufTy).Contents (Elt F) → (⟨S3, .f32⟩ : BufTy).Contents (Elt F)),
    StableHlo.binary main_v47 main_v73 main_v74 (mulf : (⟨S3, .f32⟩ : BufTy).Contents (Elt F) → (⟨S3, .f32⟩ : BufTy).Contents (Elt F) → (⟨S3, .f32⟩ : BufTy).Contents (Elt F)),
    StableHlo.nullary main_c_18 (constantI S_ 32 0#32),
    StableHlo.unary main_c_18 main_v75 (broadcastInDim S3 ![] bcast_S_S3 : (⟨S_, .i32⟩ : BufTy).Contents (Elt F) → (⟨S3, .i32⟩ : BufTy).Contents (Elt F)),
    StableHlo.binary main_v60 main_v75 main_v76 (cmpi .slt : (⟨S3, .i32⟩ : BufTy).Contents (Elt F) → (⟨S3, .i32⟩ : BufTy).Contents (Elt F) → (⟨S3, .i1⟩ : BufTy).Contents (Elt F)),
    StableHlo.nullary main_c_19 (constantI S_ 32 16777216#32),
    StableHlo.unary main_c_19 main_v77 (broadcastInDim S3 ![] bcast_S_S3 : (⟨S_, .i32⟩ : BufTy).Contents (Elt F) → (⟨S3, .i32⟩ : BufTy).Contents (Elt F)),
    StableHlo.binary main_v60 main_v77 main_v78 (addi : (⟨S3, .i32⟩ : BufTy).Contents (Elt F) → (⟨S3, .i32⟩ : BufTy).Contents (Elt F) → (⟨S3, .i32⟩ : BufTy).Contents (Elt F)),
    StableHlo.ternary main_v76 main_v78 main_v60 main_v79 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.unary main_v79 main_v80 (broadcastInDim S3x1 ![0] bcast_S3_S3x1_0 : (⟨S3, .i32⟩ : BufTy).Contents (Elt F) → (⟨S3x1, .i32⟩ : BufTy).Contents (Elt F)),
    StableHlo.ternary main_v48 main_v80 main_v74 main_v81 ((fun x i u => Host.scatterAdd scatter_S16777216_S3x1_S3_n_0_0_1 x i u) : (⟨S16777216, .f32⟩ : BufTy).Contents (Elt F) → (⟨S3x1, .i32⟩ : BufTy).Contents (Elt F) → (⟨S3, .f32⟩ : BufTy).Contents (Elt F) → (⟨S16777216, .f32⟩ : BufTy).Contents (Elt F)),
    StableHlo.nullary main_cst_20 (constant S_ .f32 0x3F000000#32),
    StableHlo.unary main_cst_20 main_v82 (broadcastInDim S3 ![] bcast_S_S3 : (⟨S_, .f32⟩ : BufTy).Contents (Elt F) → (⟨S3, .f32⟩ : BufTy).Contents (Elt F)),
    StableHlo.binary main_v47 main_v82 main_v83 (mulf : (⟨S3, .f32⟩ : BufTy).Contents (Elt F) → (⟨S3, .f32⟩ : BufTy).Contents (Elt F) → (⟨S3, .f32⟩ : BufTy).Contents (Elt F)),
    StableHlo.nullary main_c_21 (constantI S_ 32 0#32),
    StableHlo.unary main_c_21 main_v84 (broadcastInDim S3 ![] bcast_S_S3 : (⟨S_, .i32⟩ : BufTy).Contents (Elt F) → (⟨S3, .i32⟩ : BufTy).Contents (Elt F)),
    StableHlo.binary main_v72 main_v84 main_v85 (cmpi .slt : (⟨S3, .i32⟩ : BufTy).Contents (Elt F) → (⟨S3, .i32⟩ : BufTy).Contents (Elt F) → (⟨S3, .i1⟩ : BufTy).Contents (Elt F)),
    StableHlo.nullary main_c_22 (constantI S_ 32 16777216#32),
    StableHlo.unary main_c_22 main_v86 (broadcastInDim S3 ![] bcast_S_S3 : (⟨S_, .i32⟩ : BufTy).Contents (Elt F) → (⟨S3, .i32⟩ : BufTy).Contents (Elt F)),
    StableHlo.binary main_v72 main_v86 main_v87 (addi : (⟨S3, .i32⟩ : BufTy).Contents (Elt F) → (⟨S3, .i32⟩ : BufTy).Contents (Elt F) → (⟨S3, .i32⟩ : BufTy).Contents (Elt F)),
    StableHlo.ternary main_v85 main_v87 main_v72 main_v88 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.unary main_v88 main_v89 (broadcastInDim S3x1 ![0] bcast_S3_S3x1_0 : (⟨S3, .i32⟩ : BufTy).Contents (Elt F) → (⟨S3x1, .i32⟩ : BufTy).Contents (Elt F)),
    StableHlo.ternary main_v81 main_v89 main_v83 main_v90 ((fun x i u => Host.scatterAdd scatter_S16777216_S3x1_S3_n_0_0_1 x i u) : (⟨S16777216, .f32⟩ : BufTy).Contents (Elt F) → (⟨S3x1, .i32⟩ : BufTy).Contents (Elt F) → (⟨S3, .f32⟩ : BufTy).Contents (Elt F) → (⟨S16777216, .f32⟩ : BufTy).Contents (Elt F)),
    StableHlo.reshape main_v90 main_v91 rfl shapeCasts_S16777216_S16x1024x1024,
    StableHlo.nullary main_cst_23 (constant S_ .f32 0x00000000#32),
    StableHlo.binary main_v91 main_cst_23 main_v92 ((fun x v => Host.reduceAdd x v reducesTo_S16x1024x1024_S16_d1_2 h_S_) : (⟨S16x1024x1024, .f32⟩ : BufTy).Contents (Elt F) → (⟨S_, .f32⟩ : BufTy).Contents (Elt F) → (⟨S16, .f32⟩ : BufTy).Contents (Elt F)),
    StableHlo.unary main_v92 main_v93 (broadcastInDim S1x16 ![1] bcast_S16_S1x16_1 : (⟨S16, .f32⟩ : BufTy).Contents (Elt F) → (⟨S1x16, .f32⟩ : BufTy).Contents (Elt F)) ]

set_option maxRecDepth 8192 in
theorem ops_split : (ops : List (HloOp τ sig (Elt F))) = opsA ++ (opsB ++ (opsC ++ (opsD ++ opsE))) := rfl

set_option maxRecDepth 8192 in
/-- Every operation touches TensorCore references only. -/
theorem ops_sub : (ops : List (HloOp τ sig (Elt F))).Forall fun op => op.bufs ⊆ tcRefs τ sig :=
  ⟨nullary_bufs_sub .., nullary_bufs_sub .., unary_bufs_sub .., reshape_bufs_sub .., unary_bufs_sub .., reshape_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., unary_bufs_sub .., reshape_bufs_sub .., unary_bufs_sub .., reshape_bufs_sub .., binary_bufs_sub .., binary_bufs_sub .., nullary_bufs_sub .., binary_bufs_sub .., unary_bufs_sub .., nullary_bufs_sub .., unary_bufs_sub .., binary_bufs_sub .., binary_bufs_sub .., nullary_bufs_sub .., unary_bufs_sub .., nullary_bufs_sub .., unary_bufs_sub .., binary_bufs_sub .., nullary_bufs_sub .., unary_bufs_sub .., binary_bufs_sub .., unary_bufs_sub .., reshape_bufs_sub .., nullary_bufs_sub .., unary_bufs_sub .., binary_bufs_sub .., binary_bufs_sub .., unary_bufs_sub .., reshape_bufs_sub .., binary_bufs_sub .., nullary_bufs_sub .., unary_bufs_sub .., binary_bufs_sub .., nullary_bufs_sub .., unary_bufs_sub .., binary_bufs_sub .., unary_bufs_sub .., reshape_bufs_sub .., nullary_bufs_sub .., unary_bufs_sub .., binary_bufs_sub .., binary_bufs_sub .., unary_bufs_sub .., reshape_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., reshape_bufs_sub .., nullary_bufs_sub .., binary_bufs_sub .., unary_bufs_sub ..⟩

end Cert.ReferenceIdeal.RefRun

end
-- ==== Proof.RefDefs.lean ====
/-
  The reference program as named stages.

  The reference normalises its index tables as the kernel's host prefix does (over four slots per constraint instead of
  two), gathers twelve atom rows, takes for each constraint the squared deviation of the distance between its first two
  atoms from 4, and then scatter-adds HALF of each score into two cells of a zero array of 16 · 1024 · 1024 entries
  (cell (pose, r0, r1) and cell (pose, r1, r0)), reshapes, and sums each pose's 1024 × 1024 plane.
  Each stage below is the term the corresponding host operations compute.
-/
import proofs.«403794_j40054865002541_3_alg».proof.Proof.Gen.ReferenceIdeal

noncomputable section

namespace Cert.ReferenceIdeal.RefValue

open Cert.ReferenceIdeal Cert.ReferenceIdeal.Gen Idealize.ShloMosaic

variable {F : FTy → Type} [FloatOps F]

/-- The constraint table: (constraint, slot, [residue, atom]). -/
def rTab : IVec S3x4x2 32 := fun i => lit0 (S3x4x2.rowMajor i)

/-- The residue number of each (constraint, slot). -/
def rRes0 : IVec S3x4 32 :=
  shapeCast S3x4 (extractStridedSlice S3x4x1 ![0, 0, 0] rTab slices_S3x4x2_S3x4x1_0_0_0) shapeCasts_S3x4x1_S3x4

/-- The atom number within its block of each (constraint, slot). -/
def rAtomNo : IVec S3x4 32 :=
  shapeCast S3x4 (extractStridedSlice S3x4x1 ![0, 0, 1] rTab slices_S3x4x2_S3x4x1_0_0_1) shapeCasts_S3x4x1_S3x4

/-- The pose number of each constraint as a column, sign-normalised against the 16 poses. -/
def rPose : IVec S3x1 32 :=
  select (cmpi .slt (broadcastInDim S3x1 ![0] bcast_S3_S3x1_0 (constantI S3 32 0#32)) (broadcastInDim S3x1 ![] bcast_S_S3x1 (constantI S_ 32 0#32)))
    (addi (broadcastInDim S3x1 ![0] bcast_S3_S3x1_0 (constantI S3 32 0#32)) (broadcastInDim S3x1 ![] bcast_S_S3x1 (constantI S_ 32 16#32)))
    (broadcastInDim S3x1 ![0] bcast_S3_S3x1_0 (constantI S3 32 0#32))

/-- The residue numbers, sign-normalised against the 1024 blocks. -/
def rRes : IVec S3x4 32 :=
  select (cmpi .slt rRes0 (broadcastInDim S3x4 ![] bcast_S_S3x4 (constantI S_ 32 0#32)))
    (addi rRes0 (broadcastInDim S3x4 ![] bcast_S_S3x4 (constantI S_ 32 1024#32)))
    rRes0

/-- The start indices (pose, residue) of the offset gather. -/
def rIdx1 : IVec S3x4x2 32 :=
  concatenate S3x4x2 2 [⟨S3x4x1, broadcastInDim S3x4x1 ![0, 1] bcast_S3x4_S3x4x1_0_1 (broadcastInDim S3x4 ![0, 1] bcast_S3x1_S3x4_0_1 rPose)⟩,
    ⟨S3x4x1, broadcastInDim S3x4x1 ![0, 1] bcast_S3x4_S3x4x1_0_1 rRes⟩] concatenates_S3x4x1_S3x4x1_S3x4x2_d2

/-- The atom row of each (constraint, slot): the block's offset word plus the atom's number within the block. -/
def rOffs (off : IVec S16x1024 32) : IVec S3x4 32 :=
  addi (Host.gather gather_S16x1024_S3x4x2_S3x4_n_01_n_n_01_2_11 off rIdx1) rAtomNo

/-- The same, sign-normalised against the 16384 atom rows. -/
def rRow (off : IVec S16x1024 32) : IVec S3x4 32 :=
  select (cmpi .slt (rOffs off) (broadcastInDim S3x4 ![] bcast_S_S3x4 (constantI S_ 32 0#32)))
    (addi (rOffs off) (broadcastInDim S3x4 ![] bcast_S_S3x4 (constantI S_ 32 16384#32)))
    (rOffs off)

/-- The start indices (pose, atom row) of the coordinate gather. -/
def rIdx2 (off : IVec S16x1024 32) : IVec S3x4x2 32 :=
  concatenate S3x4x2 2 [⟨S3x4x1, broadcastInDim S3x4x1 ![0, 1] bcast_S3x4_S3x4x1_0_1 (broadcastInDim S3x4 ![0, 1] bcast_S3x1_S3x4_0_1 rPose)⟩,
    ⟨S3x4x1, broadcastInDim S3x4x1 ![0, 1] bcast_S3x4_S3x4x1_0_1 (rRow off)⟩] concatenates_S3x4x1_S3x4x1_S3x4x2_d2

/-- The twelve gathered atom rows: (constraint, slot, coordinate). -/
def rAtoms (x : FVec F S16x16384x3 .f32) (off : IVec S16x1024 32) : FVec F S3x4x3 .f32 :=
  Host.gather gather_S16x16384x3_S3x4x2_S3x4x3_2_01_n_n_01_2_113 x (rIdx2 off)

/-- The coordinate differences between slot 0 and slot 1 of each constraint. -/
def rDiff (A : FVec F S3x4x3 .f32) : FVec F S3x3 .f32 :=
  subf (shapeCast S3x3 (extractStridedSlice S3x1x3 ![0, 0, 0] A slices_S3x4x3_S3x1x3_0_0_0) shapeCasts_S3x1x3_S3x3)
    (shapeCast S3x3 (extractStridedSlice S3x1x3 ![0, 1, 0] A slices_S3x4x3_S3x1x3_0_1_0) shapeCasts_S3x1x3_S3x3)

/-- The distance of each constraint's two atoms, less 4. -/
def rDev (A : FVec F S3x4x3 .f32) : FVec F S3 .f32 :=
  subf (Host.sqrt (Host.reduceAdd (mulf (rDiff A) (rDiff A)) (constant S_ .f32 0x00000000#32) reducesTo_S3x3_S3_d1 h_S_))
    (broadcastInDim S3 ![] bcast_S_S3 (constant S_ .f32 0x40800000#32))

/-- The score of each constraint: the squared deviation. -/
def rScore (A : FVec F S3x4x3 .f32) : FVec F S3 .f32 := mulf (rDev A) (rDev A)

/-- The residue of slot 0, and of slot 1, of each constraint. -/
def rR0 : IVec S3 32 := shapeCast S3 (extractStridedSlice S3x1 ![0, 0] rRes0 slices_S3x4_S3x1_0_0) shapeCasts_S3x1_S3
def rR1 : IVec S3 32 := shapeCast S3 (extractStridedSlice S3x1 ![0, 1] rRes0 slices_S3x4_S3x1_0_1) shapeCasts_S3x1_S3

/-- pose · 1024 · 1024, per constraint. -/
def rBase : IVec S3 32 :=
  muli (muli (constantI S3 32 0#32) (broadcastInDim S3 ![] bcast_S_S3 (constantI S_ 32 1024#32))) (broadcastInDim S3 ![] bcast_S_S3 (constantI S_ 32 1024#32))

/-- The flat cell (pose, r0, r1), and the flat cell (pose, r1, r0), of each constraint. -/
def rCell1 : IVec S3 32 := addi (addi rBase (muli rR0 (broadcastInDim S3 ![] bcast_S_S3 (constantI S_ 32 1024#32)))) rR1
def rCell2 : IVec S3 32 := addi (addi rBase (muli rR1 (broadcastInDim S3 ![] bcast_S_S3 (constantI S_ 32 1024#32)))) rR0

/-- A cell column sign-normalised against the 16777216 cells, as the scatter's index column. -/
def rNorm (cell : IVec S3 32) : IVec S3x1 32 :=
  broadcastInDim S3x1 ![0] bcast_S3_S3x1_0
    (select (cmpi .slt cell (broadcastInDim S3 ![] bcast_S_S3 (constantI S_ 32 0#32)))
      (addi cell (broadcastInDim S3 ![] bcast_S_S3 (constantI S_ 32 16777216#32)))
      cell)

/-- Half of each score. -/
def rHalf (s : FVec F S3 .f32) : FVec F S3 .f32 := mulf s (broadcastInDim S3 ![] bcast_S_S3 (constant S_ .f32 0x3F000000#32))

/-- The flat array after both scatter-adds. -/
def rFlat (s : FVec F S3 .f32) : FVec F S16777216 .f32 :=
  Host.scatterAdd scatter_S16777216_S3x1_S3_n_0_0_1
    (Host.scatterAdd scatter_S16777216_S3x1_S3_n_0_0_1
      (broadcastInDim S16777216 ![] bcast_S_S16777216 (constant S_ .f32 0x00000000#32)) (rNorm rCell1) (rHalf s))
    (rNorm rCell2) (rHalf s)

/-- The result: each pose's plane summed, with a leading unit axis. -/
def rOut (s : FVec F S3 .f32) : FVec F S1x16 .f32 :=
  broadcastInDim S1x16 ![1] bcast_S16_S1x16_1
    (Host.reduceAdd (shapeCast S16x1024x1024 (rFlat s) shapeCasts_S16777216_S16x1024x1024) (constant S_ .f32 0x00000000#32)
      reducesTo_S16x1024x1024_S16_d1_2 h_S_)

end Cert.ReferenceIdeal.RefValue

end
-- ==== Proof.RefRun.lean ====
/-
  The reference program's run, read back.

  The reference is a straight line of 120 host operations and no kernel, so every weakly fair execution of it ends, and
  each buffer then holds the fold of the operations' results over the launch contents.  The fold is read in five
  stretches, cut before and after each of the two concatenations that build the gathers' start indices: within a stretch
  every operation's result is a function of buffers written earlier, and a stretch is read from ANY contents `W` it starts
  from.  Composed, the result buffer holds the scatter-and-sum tail of the scores of the gathered atom rows (the stages
  named in RefDefs), and the two argument buffers are written by no operation.
-/
import proofs.«403794_j40054865002541_3_alg».proof.Proof.RefOps
import proofs.«403794_j40054865002541_3_alg».proof.Proof.RefDefs

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefValue

variable {F : FTy → Type} [FloatOps F]

set_option maxRecDepth 8192 in
set_option maxHeartbeats 4000000 in
/-- The program is its operations run in order. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Two lines run one after the other fold as the second over the first. -/
theorem after_app (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

variable (W : Valuation τ sig (Elt F))

/-! ## Stretch A: the index tables, up to the first concatenation's two operands -/

set_option maxHeartbeats 4000000 in
theorem A_v16 : after opsA W (Proc.devRef .tc main_v16)
    = broadcastInDim S3x4x1 ![0, 1] bcast_S3x4_S3x4x1_0_1 (broadcastInDim S3x4 ![0, 1] bcast_S3x1_S3x4_0_1 rPose) := by
  after_results_simp <;> rfl
set_option maxHeartbeats 4000000 in
theorem A_v17 : after opsA W (Proc.devRef .tc main_v17) = broadcastInDim S3x4x1 ![0, 1] bcast_S3x4_S3x4x1_0_1 rRes := by
  after_results_simp <;> rfl
set_option maxHeartbeats 4000000 in
theorem A_v1 : after opsA W (Proc.devRef .tc main_v1) = rRes0 := by after_results_simp <;> rfl
set_option maxHeartbeats 4000000 in
theorem A_v3 : after opsA W (Proc.devRef .tc main_v3) = rAtomNo := by after_results_simp <;> rfl
set_option maxHeartbeats 4000000 in
theorem A_c0 : after opsA W (Proc.devRef .tc main_c_0) = constantI S3 32 0#32 := by after_results_simp
set_option maxHeartbeats 4000000 in
theorem A_arg0 : after opsA W (Proc.devRef .tc main_arg0) = W (Proc.devRef .tc main_arg0) := by after_results_simp
set_option maxHeartbeats 4000000 in
theorem A_arg1 : after opsA W (Proc.devRef .tc main_arg1) = W (Proc.devRef .tc main_arg1) := by after_results_simp

/-! ## Stretch B: the first concatenation -/

theorem B_v18 : after opsB W (Proc.devRef .tc main_v18)
    = concatenate S3x4x2 2 [⟨S3x4x1, W (Proc.devRef .tc main_v16)⟩, ⟨S3x4x1, W (Proc.devRef .tc main_v17)⟩] concatenates_S3x4x1_S3x4x1_S3x4x2_d2 := by
  after_results
theorem B_keep (r : Ref sig .tc) (h : r ≠ main_v18) : after opsB W (Proc.devRef .tc r) = W (Proc.devRef .tc r) := by
  simp only [after_cons, after_nil]
  rw [binary_result_ne]; exact h

/-! ## Stretch C: the offset gather and the atom rows, up to the second concatenation's two operands -/

set_option maxHeartbeats 4000000 in
theorem C_v33 (hc0 : W (Proc.devRef .tc main_c_0) = constantI S3 32 0#32) : after opsC W (Proc.devRef .tc main_v33)
    = broadcastInDim S3x4x1 ![0, 1] bcast_S3x4_S3x4x1_0_1 (broadcastInDim S3x4 ![0, 1] bcast_S3x1_S3x4_0_1 rPose) := by
  after_results_simp
  rw [hc0]; rfl
set_option maxHeartbeats 4000000 in
theorem C_v34 (h18 : W (Proc.devRef .tc main_v18) = rIdx1) (h3 : W (Proc.devRef .tc main_v3) = rAtomNo) :
    after opsC W (Proc.devRef .tc main_v34)
      = broadcastInDim S3x4x1 ![0, 1] bcast_S3x4_S3x4x1_0_1 (rRow (W (Proc.devRef .tc main_arg1))) := by
  after_results_simp
  rw [h18, h3]; rfl
set_option maxHeartbeats 4000000 in
theorem C_v1 : after opsC W (Proc.devRef .tc main_v1) = W (Proc.devRef .tc main_v1) := by after_results_simp
set_option maxHeartbeats 4000000 in
theorem C_c0 : after opsC W (Proc.devRef .tc main_c_0) = W (Proc.devRef .tc main_c_0) := by after_results_simp
set_option maxHeartbeats 4000000 in
theorem C_arg0 : after opsC W (Proc.devRef .tc main_arg0) = W (Proc.devRef .tc main_arg0) := by after_results_simp

/-! ## Stretch D: the second concatenation -/

theorem D_v35 : after opsD W (Proc.devRef .tc main_v35)
    = concatenate S3x4x2 2 [⟨S3x4x1, W (Proc.devRef .tc main_v33)⟩, ⟨S3x4x1, W (Proc.devRef .tc main_v34)⟩] concatenates_S3x4x1_S3x4x1_S3x4x2_d2 := by
  after_results
theorem D_keep (r : Ref sig .tc) (h : r ≠ main_v35) : after opsD W (Proc.devRef .tc r) = W (Proc.devRef .tc r) := by
  simp only [after_cons, after_nil]
  rw [binary_result_ne]; exact h

/-! ## Stretch E: the coordinate gather, the scores, the two scatter-adds and the plane sums -/

set_option maxRecDepth 8192 in
set_option maxHeartbeats 40000000 in
theorem E_v93 (h1 : W (Proc.devRef .tc main_v1) = rRes0) (hc0 : W (Proc.devRef .tc main_c_0) = constantI S3 32 0#32) :
    after opsE W (Proc.devRef .tc main_v93)
      = rOut (rScore (Host.gather gather_S16x16384x3_S3x4x2_S3x4x3_2_01_n_n_01_2_113 (W (Proc.devRef .tc main_arg0)) (W (Proc.devRef .tc main_v35)))) := by
  after_results_simp
  rw [h1, hc0]; rfl

/-! ## The five stretches composed -/

theorem v93_eq (V : Valuation τ sig (Elt F)) : after ops V (Proc.devRef .tc main_v93)
    = rOut (rScore (rAtoms (V (Proc.devRef .tc main_arg0)) (V (Proc.devRef .tc main_arg1)))) := by
  rw [ops_split, after_app, after_app, after_app, after_app]
  have hc0 : ∀ X : Valuation τ sig (Elt F), after opsB (after opsA X) (Proc.devRef .tc main_c_0) = constantI S3 32 0#32 := fun X => by
    rw [B_keep _ _ (by decide), A_c0]
  have h1 : ∀ X : Valuation τ sig (Elt F), after opsB (after opsA X) (Proc.devRef .tc main_v1) = rRes0 := fun X => by
    rw [B_keep _ _ (by decide), A_v1]
  rw [E_v93 _ (by rw [D_keep _ _ (by decide), C_v1, h1]) (by rw [D_keep _ _ (by decide), C_c0, hc0])]
  rw [D_keep _ _ (by decide : main_arg0 ≠ main_v35), C_arg0, B_keep _ _ (by decide : main_arg0 ≠ main_v18), A_arg0]
  rw [D_v35, C_v33 _ (hc0 V), C_v34 _ (by rw [B_v18, A_v16, A_v17]; rfl) (by rw [B_keep _ _ (by decide), A_v3])]
  rw [B_keep _ _ (by decide : main_arg1 ≠ main_v18), A_arg1]
  rfl

set_option maxRecDepth 8192 in
set_option maxHeartbeats 40000000 in
theorem arg0_eq (V : Valuation τ sig (Elt F)) : after ops V (Proc.devRef .tc main_arg0) = V (Proc.devRef .tc main_arg0) := by
  after_results_simp
set_option maxRecDepth 8192 in
set_option maxHeartbeats 40000000 in
theorem arg1_eq (V : Valuation τ sig (Elt F)) : after ops V (Proc.devRef .tc main_arg1) = V (Proc.devRef .tc main_arg1) := by
  after_results_simp

/-- On every device, from any memory with zero counters: every weakly fair execution terminates with the result buffer
    at the tail of the scores of the gathered atom rows, and the two arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v93)
          = rOut (rScore (rAtoms (m ((c.tc : Thread nD τ).loc main_arg0)) (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v93).trans (v93_eq _), (h c main_arg0).trans (arg0_eq _), (h c main_arg1).trans (arg1_eq _)⟩)
    (run_seq scopedRefs_eq scopedSems_eq defs main (fun _ => ops) main_eq (fun _ => ops_sub) m ρ)

end Cert.ReferenceIdeal.RefRun

end
-- ==== Proof.RefTail.lean ====
/-
  The reference's scores and its scatter-and-sum tail, read at one entry.
-/
import proofs.«403794_j40054865002541_3_alg».proof.Proof.RefDefs
import proofs.«403794_j40054865002541_3_alg».proof.Proof.Spec
import Idealize.ShloMosaic.PureOps.Ideal.Laws
import Idealize.ShloMosaic.Lib.IdealHost
import Idealize.ShloMosaic.Lib.ValueIdx
import Idealize.ShloMosaic.Lib.Pipeline.Value

noncomputable section

namespace Cert.ReferenceIdeal.RefValue

open Cert.ReferenceIdeal Cert.ReferenceIdeal.Gen Idealize.ShloMosaic Idealize.ShloMosaic.ValueIdx

/-- The coordinate differences at (constraint, coordinate). -/
private theorem rDiff_apply (A : FVec Ideal S3x4x3 .f32) (c : Fin 3) (k : Fin 3) :
    rDiff (F := Ideal) A (ix2 c k) = A (ix3 c (0 : Fin 4) k) - A (ix3 c (1 : Fin 4) k) := by
  unfold rDiff
  rw [subf_apply]
  rw [shapeCast_apply _ shapeCasts_S3x1x3_S3x3 (ix2 c k) (ix3 c (0 : Fin 1) k) (by
        rw [Shape.rowMajor_val_three, Shape.rowMajor_val_two]; simp),
      shapeCast_apply _ shapeCasts_S3x1x3_S3x3 (ix2 c k) (ix3 c (0 : Fin 1) k) (by
        rw [Shape.rowMajor_val_three, Shape.rowMajor_val_two]; simp)]
  rw [extractStridedSlice_apply _ A slices_S3x4x3_S3x1x3_0_0_0 (ix3 c (0 : Fin 1) k) (ix3 c (0 : Fin 4) k) (by
        intro a; match a with | ⟨0, _⟩ => simp | ⟨1, _⟩ => simp | ⟨2, _⟩ => simp),
      extractStridedSlice_apply _ A slices_S3x4x3_S3x1x3_0_1_0 (ix3 c (0 : Fin 1) k) (ix3 c (1 : Fin 4) k) (by
        intro a; match a with | ⟨0, _⟩ => simp | ⟨1, _⟩ => simp | ⟨2, _⟩ => simp)]

/-- The reduction over the coordinate axis, as a shape fact naming the inserted index. -/
private theorem reduces_S3x3_S3_d1 : S3x3.Reduces [1] S3 := by decide

/-- The deviation of constraint `c`. -/
private theorem rDev_apply (A : FVec Ideal S3x4x3 .f32) (c : Fin 3) :
    rDev (F := Ideal) A (ix1 c)
      = Cert.Harm.dev (fun k => A (ix3 c (0 : Fin 4) k)) (fun k => A (ix3 c (1 : Fin 4) k)) := by
  unfold rDev Cert.Harm.dev
  rw [subf_apply, broadcastInDim_scalar_apply, constant_apply]
  show Ideal.sqrt (Host.reduceAdd (mulf (rDiff A) (rDiff A)) (constant S_ .f32 0x00000000#32) reducesTo_S3x3_S3_d1 h_S_ (ix1 c)) - _ = _
  rw [hostReduceAdd_apply, constant_apply, Ideal.ofBits_zero_f32,
    Ideal.hostReduceAdd_single reducesTo_S3x3_S3_d1 reduces_S3x3_S3_d1, zero_add]
  have key : ∀ k : Fin 3, mulf (rDiff A) (rDiff A) (reduces_S3x3_S3_d1.lift (ix1 c) k)
      = (A (ix3 c (0 : Fin 4) k) - A (ix3 c (1 : Fin 4) k)) * (A (ix3 c (0 : Fin 4) k) - A (ix3 c (1 : Fin 4) k)) := by
    intro k
    have hk : reduces_S3x3_S3_d1.lift (ix1 c) k = ix2 c k := by
      funext a; match a with | ⟨0, _⟩ => rfl | ⟨1, _⟩ => rfl
    rw [hk, mulf_apply, rDiff_apply]
  exact congrArg (fun t => Ideal.sqrt t - Ideal.ofBits .f32 0x40800000#32) (Finset.sum_congr rfl fun k _ => key k)

/-- The score of constraint `c` is the squared deviation from 4 of the distance between its slot-0 and slot-1 atoms. -/
theorem rScore_apply (A : FVec Ideal S3x4x3 .f32) (c : Fin 3) :
    rScore (F := Ideal) A (ix1 c)
      = Cert.Harm.score (fun k => A (ix3 c (0 : Fin 4) k)) (fun k => A (ix3 c (1 : Fin 4) k)) := by
  unfold rScore Cert.Harm.score
  rw [mulf_apply, rDev_apply]

/-- The start-index reading position of update `c`: row `c` of the index column. -/
private theorem siIdx_eq (c : Fin 3) :
    scatter_S16777216_S3x1_S3_n_0_0_1.siIdx (ix1 c) ⟨0, by decide⟩ = ix2 c (0 : Fin 1) := by
  funext b
  match b with
  | ⟨0, _⟩ => rfl
  | ⟨1, _⟩ => rfl

/-- Update `c` lands at the cell its index word names, read signed. -/
private theorem resultIdx_iff (idx : IVec S3x1 32) (c : Fin 3) (q : S16777216.Idx) :
    scatter_S16777216_S3x1_S3_n_0_0_1.resultIdx? (ix1 c) idx = some q
      ↔ (idx (ix2 c (0 : Fin 1))).toInt = ((q 0).val : ℤ) := by
  have hstart : ∀ a : Fin 1, scatter_S16777216_S3x1_S3_n_0_0_1.start (ix1 c) idx a = (idx (ix2 c (0 : Fin 1))).toInt := by
    intro a
    obtain rfl : a = 0 := Subsingleton.elim _ _
    unfold ScatterDims.start
    rw [dif_pos (show (0 : Fin 1) ∈ scatter_S16777216_S3x1_S3_n_0_0_1.scatterDimsToOperandDims from List.mem_singleton.mpr rfl)]
    exact congrArg (fun k => (idx k).toInt) (siIdx_eq c)
  have hwin : ∀ a : Fin 1, scatter_S16777216_S3x1_S3_n_0_0_1.window (ix1 c) a = 0 := by
    intro a
    obtain rfl : a = 0 := Subsingleton.elim _ _
    unfold ScatterDims.window
    rw [dif_neg (by decide)]
  have hq : (q 0).val < 16777216 := (q 0).isLt
  have hsz : ∀ a : Fin 1, (![16777216] a : ℕ) = 16777216 := by
    intro a; obtain rfl : a = 0 := Subsingleton.elim _ _; rfl
  unfold ScatterDims.resultIdx?
  simp only [hstart, hwin, hsz]
  split
  · rename_i h
    have h0 := h 0
    constructor
    · intro e
      have := congrArg (fun f => ((f 0 : Fin _) : ℕ)) (Option.some.inj e)
      simp only at this
      omega
    · intro e
      refine congrArg some (funext fun a => ?_)
      obtain rfl : a = 0 := Subsingleton.elim _ _
      refine Fin.ext ?_
      show ((idx (ix2 c (0 : Fin 1))).toInt + ((0 : ℕ) : ℤ)).toNat = (q 0).val
      omega
  · rename_i h
    constructor
    · intro e; exact absurd e (by simp)
    · intro e; exfalso; apply h; intro _; omega

/-- A rank-1 index set is its coordinate range, so a sum over it is the sum over the coordinate. -/
private theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  rw [← Equiv.sum_comp e.symm f]; rfl

/-- The scatter-add at cell `q`: the operand there plus the updates whose index word, read signed, is `q`. -/
private theorem scatterAdd_apply (x : FVec Ideal S16777216 .f32) (idx : IVec S3x1 32) (upd : FVec Ideal S3 .f32)
    (q : S16777216.Idx) :
    Host.scatterAdd scatter_S16777216_S3x1_S3_n_0_0_1 x idx upd q
      = x q + ∑ c : Fin 3, if (idx (ix2 c (0 : Fin 1))).toInt = ((q 0).val : ℤ) then upd (ix1 c) else 0 := by
  show Ideal.hostScatterAdd scatter_S16777216_S3x1_S3_n_0_0_1 x idx upd q = _
  unfold Ideal.hostScatterAdd
  rw [Finset.sum_filter, sum_idx1]
  refine congrArg (x q + ·) (Finset.sum_congr rfl fun c _ => ?_)
  exact if_congr (resultIdx_iff idx c q) rfl rfl

/-- The flat cell of (pose, row, column) is its row-major position. -/
private theorem cell_val (a : Fin 16) (b c : Fin 1024) :
    ((Shape.reshapeEquiv shapeCasts_S16777216_S16x1024x1024 (ix3 a b c) : S16777216.Idx) 0).val
      = (a.val * 1024 + b.val) * 1024 + c.val := by
  have h := Shape.rowMajor_reshapeEquiv shapeCasts_S16777216_S16x1024x1024 (ix3 a b c)
  rw [Shape.rowMajor_val_one, Shape.rowMajor_val_three] at h
  exact h

/-- Plane `p` of the reshaped array sums an indicator of one cell of plane 0 to the indicator of `p = 0`. -/
private theorem plane_word (w : BitVec 32) (n : ℕ) (hw : w.toInt = (n : ℤ)) (hn : n < 1048576) (a : EReal) (p : Fin 16) :
    (∑ i ∈ Finset.univ.filter (fun i => reducesTo_S16x1024x1024_S16_d1_2.drop i = ix1 p),
        if w.toInt = (((Shape.reshapeEquiv shapeCasts_S16777216_S16x1024x1024 i : S16777216.Idx) 0).val : ℤ) then a else 0)
      = if p.val = 0 then a else 0 := by
  have key : ∀ i : S16x1024x1024.Idx,
      (w.toInt = (((Shape.reshapeEquiv shapeCasts_S16777216_S16x1024x1024 i : S16777216.Idx) 0).val : ℤ))
        ↔ (ix3 (0 : Fin 16) (⟨n / 1024, by omega⟩ : Fin 1024) (⟨n % 1024, by omega⟩ : Fin 1024) : S16x1024x1024.Idx) = i := by
    intro i
    obtain ⟨x, y, z, rfl⟩ : ∃ (x : Fin 16) (y z : Fin 1024), i = ix3 x y z := ⟨_, _, _, eq_ix3 i⟩
    rw [hw, cell_val]
    have hx := x.isLt; have hy := y.isLt; have hz := z.isLt
    constructor
    · intro h
      funext d
      match d with
      | ⟨0, _⟩ => exact Fin.ext (by show (0 : ℕ) = x.val; omega)
      | ⟨1, _⟩ => exact Fin.ext (by show n / 1024 = y.val; omega)
      | ⟨2, _⟩ => exact Fin.ext (by show n % 1024 = z.val; omega)
    · intro h
      have h0 : (0 : ℕ) = x.val := congrArg (fun f : S16x1024x1024.Idx => (f 0).val) h
      have h1 : n / 1024 = y.val := congrArg (fun f : S16x1024x1024.Idx => (f 1).val) h
      have h2 : n % 1024 = z.val := congrArg (fun f : S16x1024x1024.Idx => (f 2).val) h
      omega
  simp only [key]
  rw [Finset.sum_ite_eq]
  refine if_congr ?_ rfl rfl
  rw [Finset.mem_filter]
  constructor
  · rintro ⟨_, h⟩
    have := congrArg (fun f : S16.Idx => (f 0).val) h
    exact this.symm
  · intro h
    refine ⟨Finset.mem_univ _, ?_⟩
    funext b
    obtain rfl : b = 0 := Subsingleton.elim _ _
    exact Fin.ext h.symm

/-- The updates of plane `p` of a scatter-add all of whose cells lie in plane 0: every update at `p = 0`, none elsewhere. -/
private theorem plane_scatter (x : FVec Ideal S16777216 .f32) (idx : IVec S3x1 32) (upd : FVec Ideal S3 .f32)
    (n : Fin 3 → ℕ) (hw : ∀ c, (idx (ix2 c (0 : Fin 1))).toInt = (n c : ℤ)) (hn : ∀ c, n c < 1048576) (p : Fin 16) :
    (∑ i ∈ Finset.univ.filter (fun i => reducesTo_S16x1024x1024_S16_d1_2.drop i = ix1 p),
        Host.scatterAdd scatter_S16777216_S3x1_S3_n_0_0_1 x idx upd (Shape.reshapeEquiv shapeCasts_S16777216_S16x1024x1024 i))
      = (∑ i ∈ Finset.univ.filter (fun i => reducesTo_S16x1024x1024_S16_d1_2.drop i = ix1 p),
          x (Shape.reshapeEquiv shapeCasts_S16777216_S16x1024x1024 i))
        + if p.val = 0 then ∑ c : Fin 3, upd (ix1 c) else 0 := by
  simp only [scatterAdd_apply]
  rw [Finset.sum_add_distrib, Finset.sum_comm]
  congr 1
  rw [Finset.sum_congr rfl fun c _ => plane_word _ (n c) (hw c) (hn c) (upd (ix1 c)) p]
  by_cases h : p.val = 0 <;> simp [h]

/-- The literal one half. -/
private theorem ofBits_half_f32 : Ideal.ofBits .f32 0x3F000000#32 = (((1 : ℝ) / 2 : ℝ) : EReal) := by
  simp [Ideal.ofBits, Ideal.ieee, -EReal.coe_mul]; norm_num

/-- Two halves of any extended real make it whole. -/
private theorem half_add_half (x : EReal) :
    x * (((1 : ℝ) / 2 : ℝ) : EReal) + x * (((1 : ℝ) / 2 : ℝ) : EReal) = x := by
  induction x using EReal.rec with
  | bot => rw [EReal.bot_mul_coe_of_pos (by norm_num)]; rfl
  | top => rw [EReal.top_mul_coe_of_pos (by norm_num)]; rfl
  | coe r => rw [← EReal.coe_mul, ← EReal.coe_add]; congr 1; ring

/-- Summing each pose's plane of the twice-scattered array gives the three scores at pose 0 and zero elsewhere. -/
theorem rOut_apply (s : FVec Ideal S3 .f32) (p : Fin 16) :
    rOut (F := Ideal) s (ix2 (0 : Fin 1) p)
      = Cert.Harm.outRow (s (ix1 (0 : Fin 3))) (s (ix1 (1 : Fin 3))) (s (ix1 (2 : Fin 3))) p := by
  unfold rOut
  rw [broadcastInDim_apply ![1] bcast_S16_S1x16_1 _ (ix2 (0 : Fin 1) p) (ix1 p) (by
    intro a; obtain rfl : a = 0 := Subsingleton.elim _ _; rfl)]
  rw [hostReduceAdd_apply, constant_apply, Ideal.ofBits_zero_f32]
  unfold Ideal.hostReduceAdd
  show 0 + ∑ i ∈ Finset.univ.filter (fun i => reducesTo_S16x1024x1024_S16_d1_2.drop i = ix1 p),
      rFlat s (Shape.reshapeEquiv shapeCasts_S16777216_S16x1024x1024 i) = _
  unfold rFlat
  rw [plane_scatter _ (rNorm rCell2) (rHalf s) ![1024, 2049, 1024] (by intro c; fin_cases c <;> rfl)
        (by intro c; fin_cases c <;> norm_num) p,
      plane_scatter _ (rNorm rCell1) (rHalf s) ![1, 1026, 1] (by intro c; fin_cases c <;> rfl)
        (by intro c; fin_cases c <;> norm_num) p]
  have hz : ∀ q : S16777216.Idx,
      broadcastInDim S16777216 ![] bcast_S_S16777216 (constant (F := Ideal) S_ .f32 0x00000000#32) q = 0 := by
    intro q; rw [broadcastInDim_scalar_apply, constant_apply, Ideal.ofBits_zero_f32]
  have hh : ∀ c : Fin 3, rHalf s (ix1 c) = s (ix1 c) * (((1 : ℝ) / 2 : ℝ) : EReal) := by
    intro c; unfold rHalf; rw [mulf_apply, broadcastInDim_scalar_apply, constant_apply, ofBits_half_f32]
  simp only [hz, Finset.sum_const_zero]
  unfold Cert.Harm.outRow
  by_cases hp : p.val = 0
  · simp only [if_pos hp]
    rw [Fin.sum_univ_three, hh, hh, hh, zero_add, zero_add]
    have regroup : ∀ a b c : EReal, (a + b + c) + (a + b + c) = (a + a) + (b + b) + (c + c) := by
      intro a b c; abel
    rw [regroup, half_add_half, half_add_half, half_add_half]
  · simp only [if_neg hp]
    simp

end Cert.ReferenceIdeal.RefValue

end
-- ==== Proof.Gathers.lean ====
/-
  The kernel's six gathered atom rows are the reference's rows of slots 0 and 1.

  Both programs gather their atom rows out of the coordinate array at start indices (pose, atom row), the atom row
  itself read out of the block-offset table at (pose, residue) plus an atom number.  First the two gather shapes are
  read at an index once and for all; then the start-index arrays of the two programs are compared word for word on the
  slots they share: the pose column is one closed term, and residues and atom numbers of slots 0 and 1 are the same
  literals in both programs' tables.
-/
import proofs.«403794_j40054865002541_3_alg».proof.Proof.RefDefs
import proofs.«403794_j40054865002541_3_alg».proof.Proof.KDefs
import Idealize.ShloMosaic.Lib.ValueIdx
import Idealize.ShloMosaic.Lib.Pipeline.Value

noncomputable section

namespace Cert.Harm

open Idealize.ShloMosaic Idealize.ShloMosaic.ValueIdx

namespace Gathers

/-! ## A gather whose two leading operand axes are collapsed and start-indexed, read at an index

The start indices are an (E1, E2, 2) array with the index vector on its last axis.  Result element (c, s[, m]) is the
operand at (start 0, start 1[, m]): each start is the index word at (c, s, axis) read signed and clamped into the axis
(the slice size on a collapsed axis is 1, so the clamp is to the last position), and the offset axis, when there is
one, passes its coordinate through. -/

/-- With no offset axes and the index vector on axis 2, result index (c, s) reads component k of its start index at
    (c, s, k). -/
theorem siIdx2 {N0 N1 E1 E2 : Nat} (d : GatherDims ⟨2, ![N0, N1]⟩ ⟨3, ![E1, E2, 2]⟩ ⟨2, ![E1, E2]⟩)
    (hoff : d.offsetDims = []) (hivd : d.indexVectorDim = 2)
    (c : Fin E1) (s : Fin E2) (k : Fin d.startIndexMap.length) (k' : Fin 2) (hk : k.val = k'.val) :
    d.siIdx (ix2 c s) k = ix3 c s k' := by
  funext b
  apply Fin.ext
  match b with
  | ⟨0, _⟩ =>
    unfold GatherDims.siIdx
    rw [dif_neg (by rw [hivd]; simp)]
    unfold GatherDims.siCoord
    simp only [Fin.val_cast]
    have e : ∀ X : Fin 2, X = 0 → ((ix2 c s : (⟨2, ![E1, E2]⟩ : Shape).Idx) X).val = c.val := fun X hX => by
      subst hX; rfl
    apply e
    simp only [GatherDims.batchDims, GatherDims.siKept, hoff, hivd]
    rfl
  | ⟨1, _⟩ =>
    unfold GatherDims.siIdx
    rw [dif_neg (by rw [hivd]; simp)]
    unfold GatherDims.siCoord
    simp only [Fin.val_cast]
    have e : ∀ X : Fin 2, X = 1 → ((ix2 c s : (⟨2, ![E1, E2]⟩ : Shape).Idx) X).val = s.val := fun X hX => by
      subst hX; rfl
    apply e
    simp only [GatherDims.batchDims, GatherDims.siKept, hoff, hivd]
    rfl
  | ⟨2, _⟩ =>
    unfold GatherDims.siIdx
    rw [dif_pos (by rw [hivd])]
    exact hk

/-- The rank-2 operand: result (c, s) is the operand at the two clamped starts. -/
theorem gather2_apply {α : Type} {N0 N1 E1 E2 w : Nat} (hN0 : 0 < N0) (hN1 : 0 < N1)
    (d : GatherDims ⟨2, ![N0, N1]⟩ ⟨3, ![E1, E2, 2]⟩ ⟨2, ![E1, E2]⟩)
    (hoff : d.offsetDims = []) (hcoll : d.collapsedSliceDims = [0, 1]) (hob : d.operandBatchingDims = [])
    (hsim : d.startIndexMap = [0, 1]) (hivd : d.indexVectorDim = 2)
    (x : (⟨2, ![N0, N1]⟩ : Shape).Idx → α) (idx : IVec ⟨3, ![E1, E2, 2]⟩ w) (c : Fin E1) (s : Fin E2) :
    Host.gather d x idx (ix2 c s) =
      x (ix2 ⟨min (idx (ix3 c s (0 : Fin 2))).toInt.toNat (N0 - 1), by omega⟩
             ⟨min (idx (ix3 c s (1 : Fin 2))).toInt.toNat (N1 - 1), by omega⟩) := by
  unfold Host.gather
  congr 1
  funext a
  apply Fin.ext
  have hb : a ∉ d.operandBatchingDims := by rw [hob]; exact List.not_mem_nil
  have hcm : a ∈ d.collapsedSliceDims := by
    rw [hcoll]; match a with
    | ⟨0, _⟩ => exact List.mem_cons_self
    | ⟨1, _⟩ => exact List.mem_cons_of_mem _ List.mem_cons_self
  have hk : a ∉ d.sKept := by rw [GatherDims.mem_sKept]; exact fun h => h.1 hcm
  have hm : a ∈ d.startIndexMap := by rw [hsim, ← hcoll]; exact hcm
  have hsl : d.sliceSizes a = 1 := d.slice_collapsed a hcm
  simp only [GatherDims.operandIdx, GatherDims.batchCoord_eq_zero _ _ _ hb, GatherDims.offCoord_eq_zero _ _ _ hk,
    Nat.add_zero, GatherDims.start, dif_pos hm, hsl]
  match a with
  | ⟨0, _⟩ =>
    rw [siIdx2 d hoff hivd c s _ (0 : Fin 2) (by simp [hsim])]
    rfl
  | ⟨1, _⟩ =>
    rw [siIdx2 d hoff hivd c s _ (1 : Fin 2) (by simp [hsim])]
    rfl

/-- Two such gathers of one operand agree at two result positions whose start-index words agree. -/
theorem gather2_congr {α : Type} {N0 N1 E1 E2 E1' E2' w : Nat} (hN0 : 0 < N0) (hN1 : 0 < N1)
    (d : GatherDims ⟨2, ![N0, N1]⟩ ⟨3, ![E1, E2, 2]⟩ ⟨2, ![E1, E2]⟩)
    (hoff : d.offsetDims = []) (hcoll : d.collapsedSliceDims = [0, 1]) (hob : d.operandBatchingDims = [])
    (hsim : d.startIndexMap = [0, 1]) (hivd : d.indexVectorDim = 2)
    (d' : GatherDims ⟨2, ![N0, N1]⟩ ⟨3, ![E1', E2', 2]⟩ ⟨2, ![E1', E2']⟩)
    (hoff' : d'.offsetDims = []) (hcoll' : d'.collapsedSliceDims = [0, 1]) (hob' : d'.operandBatchingDims = [])
    (hsim' : d'.startIndexMap = [0, 1]) (hivd' : d'.indexVectorDim = 2)
    (x : (⟨2, ![N0, N1]⟩ : Shape).Idx → α) (idx : IVec ⟨3, ![E1, E2, 2]⟩ w) (idx' : IVec ⟨3, ![E1', E2', 2]⟩ w)
    (c : Fin E1) (s : Fin E2) (c' : Fin E1') (s' : Fin E2')
    (h0 : idx (ix3 c s (0 : Fin 2)) = idx' (ix3 c' s' (0 : Fin 2)))
    (h1 : idx (ix3 c s (1 : Fin 2)) = idx' (ix3 c' s' (1 : Fin 2))) :
    Host.gather d x idx (ix2 c s) = Host.gather d' x idx' (ix2 c' s') := by
  rw [gather2_apply hN0 hN1 d hoff hcoll hob hsim hivd, gather2_apply hN0 hN1 d' hoff' hcoll' hob' hsim' hivd']
  simp only [h0, h1]

/-- With the one offset axis last and the index vector on axis 2, result index (c, s, m) reads component k of its start
    index at (c, s, k). -/
theorem siIdx3 {N0 N1 C E1 E2 : Nat} (d : GatherDims ⟨3, ![N0, N1, C]⟩ ⟨3, ![E1, E2, 2]⟩ ⟨3, ![E1, E2, C]⟩)
    (hoff : d.offsetDims = [2]) (hivd : d.indexVectorDim = 2)
    (c : Fin E1) (s : Fin E2) (m : Fin C) (k : Fin d.startIndexMap.length) (k' : Fin 2) (hk : k.val = k'.val) :
    d.siIdx (ix3 c s m) k = ix3 c s k' := by
  funext b
  apply Fin.ext
  match b with
  | ⟨0, _⟩ =>
    unfold GatherDims.siIdx
    rw [dif_neg (by rw [hivd]; simp)]
    unfold GatherDims.siCoord
    simp only [Fin.val_cast]
    have e : ∀ X : Fin 3, X = 0 → ((ix3 c s m : (⟨3, ![E1, E2, C]⟩ : Shape).Idx) X).val = c.val := fun X hX => by
      subst hX; rfl
    apply e
    simp only [GatherDims.batchDims, GatherDims.siKept, hoff, hivd]
    rfl
  | ⟨1, _⟩ =>
    unfold GatherDims.siIdx
    rw [dif_neg (by rw [hivd]; simp)]
    unfold GatherDims.siCoord
    simp only [Fin.val_cast]
    have e : ∀ X : Fin 3, X = 1 → ((ix3 c s m : (⟨3, ![E1, E2, C]⟩ : Shape).Idx) X).val = s.val := fun X hX => by
      subst hX; rfl
    apply e
    simp only [GatherDims.batchDims, GatherDims.siKept, hoff, hivd]
    rfl
  | ⟨2, _⟩ =>
    unfold GatherDims.siIdx
    rw [dif_pos (by rw [hivd])]
    exact hk

/-- The rank-3 operand: result (c, s, m) is the operand at the two clamped starts and m. -/
theorem gather3_apply {α : Type} {N0 N1 C E1 E2 w : Nat} (hN0 : 0 < N0) (hN1 : 0 < N1)
    (d : GatherDims ⟨3, ![N0, N1, C]⟩ ⟨3, ![E1, E2, 2]⟩ ⟨3, ![E1, E2, C]⟩)
    (hoff : d.offsetDims = [2]) (hcoll : d.collapsedSliceDims = [0, 1]) (hob : d.operandBatchingDims = [])
    (hsim : d.startIndexMap = [0, 1]) (hivd : d.indexVectorDim = 2)
    (x : (⟨3, ![N0, N1, C]⟩ : Shape).Idx → α) (idx : IVec ⟨3, ![E1, E2, 2]⟩ w) (c : Fin E1) (s : Fin E2) (m : Fin C) :
    Host.gather d x idx (ix3 c s m) =
      x (ix3 ⟨min (idx (ix3 c s (0 : Fin 2))).toInt.toNat (N0 - 1), by omega⟩
             ⟨min (idx (ix3 c s (1 : Fin 2))).toInt.toNat (N1 - 1), by omega⟩ m) := by
  unfold Host.gather
  congr 1
  funext a
  apply Fin.ext
  have hb : a ∉ d.operandBatchingDims := by rw [hob]; exact List.not_mem_nil
  match a with
  | ⟨0, _⟩ =>
    have hcm : (⟨0, by decide⟩ : Fin 3) ∈ d.collapsedSliceDims := by rw [hcoll]; exact List.mem_cons_self
    have hk : (⟨0, by decide⟩ : Fin 3) ∉ d.sKept := by rw [GatherDims.mem_sKept]; exact fun h => h.1 hcm
    have hm : (⟨0, by decide⟩ : Fin 3) ∈ d.startIndexMap := by rw [hsim, ← hcoll]; exact hcm
    have hsl := d.slice_collapsed _ hcm
    simp only [GatherDims.operandIdx, GatherDims.batchCoord_eq_zero _ _ _ hb, GatherDims.offCoord_eq_zero _ _ _ hk,
      Nat.add_zero, GatherDims.start, dif_pos hm, hsl]
    rw [siIdx3 d hoff hivd c s m _ (0 : Fin 2) (by simp [hsim])]
    rfl
  | ⟨1, _⟩ =>
    have hcm : (⟨1, by decide⟩ : Fin 3) ∈ d.collapsedSliceDims := by rw [hcoll]; exact List.mem_cons_of_mem _ List.mem_cons_self
    have hk : (⟨1, by decide⟩ : Fin 3) ∉ d.sKept := by rw [GatherDims.mem_sKept]; exact fun h => h.1 hcm
    have hm : (⟨1, by decide⟩ : Fin 3) ∈ d.startIndexMap := by rw [hsim, ← hcoll]; exact hcm
    have hsl := d.slice_collapsed _ hcm
    simp only [GatherDims.operandIdx, GatherDims.batchCoord_eq_zero _ _ _ hb, GatherDims.offCoord_eq_zero _ _ _ hk,
      Nat.add_zero, GatherDims.start, dif_pos hm, hsl]
    rw [siIdx3 d hoff hivd c s m _ (1 : Fin 2) (by simp [hsim])]
    rfl
  | ⟨2, _⟩ =>
    have hnm : (⟨2, by decide⟩ : Fin 3) ∉ d.startIndexMap := by rw [hsim]; simp [Fin.ext_iff]
    have hk : (⟨2, by decide⟩ : Fin 3) ∈ d.sKept := by rw [GatherDims.mem_sKept, hcoll, hob]; simp [Fin.ext_iff]
    simp only [GatherDims.operandIdx, GatherDims.batchCoord_eq_zero _ _ _ hb, Nat.add_zero, GatherDims.start, dif_neg hnm,
      Nat.zero_add, GatherDims.offCoord, dif_pos hk]
    have e : ∀ X : Fin 3, X = 2 → ((ix3 c s m : (⟨3, ![E1, E2, C]⟩ : Shape).Idx) X).val = m.val := fun X hX => by
      subst hX; rfl
    apply e
    simp only [hoff]
    exact List.getElem_singleton _

/-- Two such gathers of one operand agree at two result positions with one offset coordinate whose start-index words
    agree. -/
theorem gather3_congr {α : Type} {N0 N1 C E1 E2 E1' E2' w : Nat} (hN0 : 0 < N0) (hN1 : 0 < N1)
    (d : GatherDims ⟨3, ![N0, N1, C]⟩ ⟨3, ![E1, E2, 2]⟩ ⟨3, ![E1, E2, C]⟩)
    (hoff : d.offsetDims = [2]) (hcoll : d.collapsedSliceDims = [0, 1]) (hob : d.operandBatchingDims = [])
    (hsim : d.startIndexMap = [0, 1]) (hivd : d.indexVectorDim = 2)
    (d' : GatherDims ⟨3, ![N0, N1, C]⟩ ⟨3, ![E1', E2', 2]⟩ ⟨3, ![E1', E2', C]⟩)
    (hoff' : d'.offsetDims = [2]) (hcoll' : d'.collapsedSliceDims = [0, 1]) (hob' : d'.operandBatchingDims = [])
    (hsim' : d'.startIndexMap = [0, 1]) (hivd' : d'.indexVectorDim = 2)
    (x : (⟨3, ![N0, N1, C]⟩ : Shape).Idx → α) (idx : IVec ⟨3, ![E1, E2, 2]⟩ w) (idx' : IVec ⟨3, ![E1', E2', 2]⟩ w)
    (c : Fin E1) (s : Fin E2) (c' : Fin E1') (s' : Fin E2') (m : Fin C)
    (h0 : idx (ix3 c s (0 : Fin 2)) = idx' (ix3 c' s' (0 : Fin 2)))
    (h1 : idx (ix3 c s (1 : Fin 2)) = idx' (ix3 c' s' (1 : Fin 2))) :
    Host.gather d x idx (ix3 c s m) = Host.gather d' x idx' (ix3 c' s' m) := by
  rw [gather3_apply hN0 hN1 d hoff hcoll hob hsim hivd, gather3_apply hN0 hN1 d' hoff' hcoll' hob' hsim' hivd']
  simp only [h0, h1]

/-! ## The start-index arrays: a column over the constraints and an (E1, E2) array, joined on a new last axis -/

/-- Component 0 at (c, s) is the column at c. -/
theorem idxPair_apply0 {α : Type} {E1 E2 : Nat}
    (hb1 : (⟨2, ![E1, 1]⟩ : Shape).BroadcastsInDim ⟨2, ![E1, E2]⟩ ![0, 1])
    (hb2 : (⟨2, ![E1, E2]⟩ : Shape).BroadcastsInDim ⟨3, ![E1, E2, 1]⟩ ![0, 1])
    (hc : Shape.Concatenates [(⟨3, ![E1, E2, 1]⟩ : Shape), ⟨3, ![E1, E2, 1]⟩] ⟨3, ![E1, E2, 2]⟩ 2)
    (p : (⟨2, ![E1, 1]⟩ : Shape).Idx → α) (r : (⟨2, ![E1, E2]⟩ : Shape).Idx → α) (c : Fin E1) (s : Fin E2) :
    concatenate ⟨3, ![E1, E2, 2]⟩ 2
      [⟨⟨3, ![E1, E2, 1]⟩, broadcastInDim ⟨3, ![E1, E2, 1]⟩ ![0, 1] hb2 (broadcastInDim ⟨2, ![E1, E2]⟩ ![0, 1] hb1 p)⟩,
       ⟨⟨3, ![E1, E2, 1]⟩, broadcastInDim ⟨3, ![E1, E2, 1]⟩ ![0, 1] hb2 r⟩] hc (ix3 c s (0 : Fin 2))
      = p (ix2 c (0 : Fin 1)) := by
  have hcl := c.isLt
  have hsl := s.isLt
  rw [concatenate_pair_apply_left (t := ⟨3, ![E1, E2, 2]⟩) (s₁ := ⟨3, ![E1, E2, 1]⟩) (s₂ := ⟨3, ![E1, E2, 1]⟩) 2 _ _ hc (ix3 c s (0 : Fin 2)) rfl (ix3 c s (0 : Fin 1)) (by
    intro b; match b with
    | ⟨0, _⟩ => rfl
    | ⟨1, _⟩ => rfl
    | ⟨2, _⟩ => rfl)]
  rw [broadcastInDim_apply ![0, 1] hb2 _ (ix3 c s (0 : Fin 1)) (ix2 c s) (by
    intro a; match a with
    | ⟨0, _⟩ => show c.val = if E1 = 1 then 0 else c.val; split <;> omega
    | ⟨1, _⟩ => show s.val = if E2 = 1 then 0 else s.val; split <;> omega)]
  rw [broadcastInDim_apply ![0, 1] hb1 _ (ix2 c s) (ix2 c (0 : Fin 1)) (by
    intro a; match a with
    | ⟨0, _⟩ => show c.val = if E1 = 1 then 0 else c.val; split <;> omega
    | ⟨1, _⟩ => show (0 : ℕ) = if (1 : ℕ) = 1 then 0 else s.val; simp)]

/-- Component 1 at (c, s) is the array at (c, s). -/
theorem idxPair_apply1 {α : Type} {E1 E2 : Nat}
    (hb1 : (⟨2, ![E1, 1]⟩ : Shape).BroadcastsInDim ⟨2, ![E1, E2]⟩ ![0, 1])
    (hb2 : (⟨2, ![E1, E2]⟩ : Shape).BroadcastsInDim ⟨3, ![E1, E2, 1]⟩ ![0, 1])
    (hc : Shape.Concatenates [(⟨3, ![E1, E2, 1]⟩ : Shape), ⟨3, ![E1, E2, 1]⟩] ⟨3, ![E1, E2, 2]⟩ 2)
    (p : (⟨2, ![E1, 1]⟩ : Shape).Idx → α) (r : (⟨2, ![E1, E2]⟩ : Shape).Idx → α) (c : Fin E1) (s : Fin E2) :
    concatenate ⟨3, ![E1, E2, 2]⟩ 2
      [⟨⟨3, ![E1, E2, 1]⟩, broadcastInDim ⟨3, ![E1, E2, 1]⟩ ![0, 1] hb2 (broadcastInDim ⟨2, ![E1, E2]⟩ ![0, 1] hb1 p)⟩,
       ⟨⟨3, ![E1, E2, 1]⟩, broadcastInDim ⟨3, ![E1, E2, 1]⟩ ![0, 1] hb2 r⟩] hc (ix3 c s (1 : Fin 2))
      = r (ix2 c s) := by
  have hcl := c.isLt
  have hsl := s.isLt
  rw [concatenate_pair_apply_right (t := ⟨3, ![E1, E2, 2]⟩) (s₁ := ⟨3, ![E1, E2, 1]⟩) (s₂ := ⟨3, ![E1, E2, 1]⟩) 2 _ _ hc (ix3 c s (1 : Fin 2)) rfl rfl (ix3 c s (0 : Fin 1)) (by
    intro b hb; match b, hb with
    | ⟨0, _⟩, _ => rfl
    | ⟨1, _⟩, _ => rfl
    | ⟨2, _⟩, hb => exact absurd rfl hb) rfl]
  rw [broadcastInDim_apply ![0, 1] hb2 _ (ix3 c s (0 : Fin 1)) (ix2 c s) (by
    intro a; match a with
    | ⟨0, _⟩ => show c.val = if E1 = 1 then 0 else c.val; split <;> omega
    | ⟨1, _⟩ => show s.val = if E2 = 1 then 0 else s.val; split <;> omega)]

/-! ## The two programs' start-index arrays agree on slots 0 and 1 -/

open Cert.KernelIdeal.KValue Cert.ReferenceIdeal.RefValue

/-- Slot s of the kernel's two slots, as a slot of the reference's four. -/
abbrev up (s : Fin 2) : Fin 4 := Fin.castLE (by decide) s

/-- The sign normalisation of an index word against an axis of n positions. -/
def norm (n v : BitVec 32) : BitVec 32 := Scalar.select (IntOp.cmpi .slt v 0#32) (IntOp.addi v n) v

theorem kIdx1_0 (c : Fin 3) (s : Fin 2) : kIdx1 (ix3 c s (0 : Fin 2)) = kPose (ix2 c (0 : Fin 1)) := by
  unfold kIdx1; exact idxPair_apply0 _ _ _ _ _ c s
theorem kIdx1_1 (c : Fin 3) (s : Fin 2) : kIdx1 (ix3 c s (1 : Fin 2)) = kRes (ix2 c s) := by
  unfold kIdx1; exact idxPair_apply1 _ _ _ _ _ c s
theorem rIdx1_0 (c : Fin 3) (s : Fin 4) : rIdx1 (ix3 c s (0 : Fin 2)) = rPose (ix2 c (0 : Fin 1)) := by
  unfold rIdx1; exact idxPair_apply0 _ _ _ _ _ c s
theorem rIdx1_1 (c : Fin 3) (s : Fin 4) : rIdx1 (ix3 c s (1 : Fin 2)) = rRes (ix2 c s) := by
  unfold rIdx1; exact idxPair_apply1 _ _ _ _ _ c s
theorem kIdx2_0 (off : IVec Cert.KernelIdeal.S16x1024 32) (c : Fin 3) (s : Fin 2) :
    kIdx2 off (ix3 c s (0 : Fin 2)) = kPose (ix2 c (0 : Fin 1)) := by
  unfold kIdx2; exact idxPair_apply0 _ _ _ _ _ c s
theorem kIdx2_1 (off : IVec Cert.KernelIdeal.S16x1024 32) (c : Fin 3) (s : Fin 2) :
    kIdx2 off (ix3 c s (1 : Fin 2)) = kRow off (ix2 c s) := by
  unfold kIdx2; exact idxPair_apply1 _ _ _ _ _ c s
theorem rIdx2_0 (off : IVec Cert.ReferenceIdeal.S16x1024 32) (c : Fin 3) (s : Fin 4) :
    rIdx2 off (ix3 c s (0 : Fin 2)) = rPose (ix2 c (0 : Fin 1)) := by
  unfold rIdx2; exact idxPair_apply0 _ _ _ _ _ c s
theorem rIdx2_1 (off : IVec Cert.ReferenceIdeal.S16x1024 32) (c : Fin 3) (s : Fin 4) :
    rIdx2 off (ix3 c s (1 : Fin 2)) = rRow off (ix2 c s) := by
  unfold rIdx2; exact idxPair_apply1 _ _ _ _ _ c s

/-- The pose columns are one closed term. -/
theorem pose_eq : (kPose : IVec ⟨2, ![3, 1]⟩ 32) = rPose := rfl

/-- The normalised residue of (constraint, slot) is the same word in both tables. -/
theorem res_eq (c : Fin 3) (s : Fin 2) : kRes (ix2 c s) = rRes (ix2 c (up s)) := by
  fin_cases c <;> fin_cases s <;> rfl

/-- So is the atom number. -/
theorem atomNo_eq (c : Fin 3) (s : Fin 2) :
    Cert.KernelIdeal.lit1 (Cert.KernelIdeal.S3x2.rowMajor (ix2 c s)) = rAtomNo (ix2 c (up s)) := by
  fin_cases c <;> fin_cases s <;> rfl

theorem idx1_eq0 (c : Fin 3) (s : Fin 2) : kIdx1 (ix3 c s (0 : Fin 2)) = rIdx1 (ix3 c (up s) (0 : Fin 2)) := by
  rw [kIdx1_0, rIdx1_0]; rfl
theorem idx1_eq1 (c : Fin 3) (s : Fin 2) : kIdx1 (ix3 c s (1 : Fin 2)) = rIdx1 (ix3 c (up s) (1 : Fin 2)) := by
  rw [kIdx1_1, rIdx1_1, res_eq]

/-- The atom rows agree: the offset words are one gather of the block-offset table at equal start indices. -/
theorem offs_eq (off : IVec Cert.KernelIdeal.S16x1024 32) (c : Fin 3) (s : Fin 2) :
    kOffs off (ix2 c s) = rOffs off (ix2 c (up s)) := by
  show IntOp.addi (Host.gather Cert.KernelIdeal.gather_S16x1024_S3x2x2_S3x2_n_01_n_n_01_2_11 off kIdx1 (ix2 c s))
        (Cert.KernelIdeal.lit1 (Cert.KernelIdeal.S3x2.rowMajor (ix2 c s)))
      = IntOp.addi (Host.gather Cert.ReferenceIdeal.gather_S16x1024_S3x4x2_S3x4_n_01_n_n_01_2_11 off rIdx1 (ix2 c (up s)))
        (rAtomNo (ix2 c (up s)))
  rw [atomNo_eq c s]
  congr 1
  exact gather2_congr (by decide) (by decide) _ rfl rfl rfl rfl rfl _ rfl rfl rfl rfl rfl off kIdx1 rIdx1 c s c (up s)
    (idx1_eq0 c s) (idx1_eq1 c s)

theorem kRow_apply (off : IVec Cert.KernelIdeal.S16x1024 32) (i : Cert.KernelIdeal.S3x2.Idx) :
    kRow off i = norm 16384#32 (kOffs off i) := rfl
theorem rRow_apply (off : IVec Cert.ReferenceIdeal.S16x1024 32) (i : Cert.ReferenceIdeal.S3x4.Idx) :
    rRow off i = norm 16384#32 (rOffs off i) := rfl

theorem row_eq (off : IVec Cert.KernelIdeal.S16x1024 32) (c : Fin 3) (s : Fin 2) :
    kRow off (ix2 c s) = rRow off (ix2 c (up s)) := by
  rw [kRow_apply, rRow_apply, offs_eq]

theorem idx2_eq0 (off : IVec Cert.KernelIdeal.S16x1024 32) (c : Fin 3) (s : Fin 2) :
    kIdx2 off (ix3 c s (0 : Fin 2)) = rIdx2 off (ix3 c (up s) (0 : Fin 2)) := by
  rw [kIdx2_0, rIdx2_0]; rfl
theorem idx2_eq1 (off : IVec Cert.KernelIdeal.S16x1024 32) (c : Fin 3) (s : Fin 2) :
    kIdx2 off (ix3 c s (1 : Fin 2)) = rIdx2 off (ix3 c (up s) (1 : Fin 2)) := by
  rw [kIdx2_1, rIdx2_1, row_eq]

/-- Slot s of the kernel and slot s of the reference read the same row of the coordinate array. -/
theorem atoms_agree (x : FVec Ideal Cert.KernelIdeal.S16x16384x3 .f32) (off : IVec Cert.KernelIdeal.S16x1024 32)
    (c : Fin 3) (s : Fin 2) (k : Fin 3) :
    rAtoms (F := Ideal) x off (ix3 c (up s) k) = kAtoms (F := Ideal) x off (ix3 c s k) := by
  unfold rAtoms kAtoms
  exact gather3_congr (by decide) (by decide) _ rfl rfl rfl rfl rfl _ rfl rfl rfl rfl rfl x (rIdx2 off) (kIdx2 off)
    c (up s) c s k (idx2_eq0 off c s).symm (idx2_eq1 off c s).symm

end Gathers

open Gathers in
/-- Slot 0: both programs read the same row of the coordinate array. -/
theorem atoms_agree0 (x : FVec Ideal Cert.KernelIdeal.S16x16384x3 .f32) (off : IVec Cert.KernelIdeal.S16x1024 32) (c : Fin 3) (k : Fin 3) :
    Cert.ReferenceIdeal.RefValue.rAtoms (F := Ideal) x off (ix3 c (0 : Fin 4) k)
      = Cert.KernelIdeal.KValue.kAtoms (F := Ideal) x off (ix3 c (0 : Fin 2) k) := by
  exact atoms_agree x off c 0 k

open Gathers in
/-- Slot 1 likewise. -/
theorem atoms_agree1 (x : FVec Ideal Cert.KernelIdeal.S16x16384x3 .f32) (off : IVec Cert.KernelIdeal.S16x1024 32) (c : Fin 3) (k : Fin 3) :
    Cert.ReferenceIdeal.RefValue.rAtoms (F := Ideal) x off (ix3 c (1 : Fin 4) k)
      = Cert.KernelIdeal.KValue.kAtoms (F := Ideal) x off (ix3 c (1 : Fin 2) k) := by
  exact atoms_agree x off c 1 k

end Cert.Harm

end
-- ==== Proof.Bridge.lean ====
/-
  The two results are one function of the arguments.

  Entry (0, p) of the reference's result is the three scores summed at p = 0 and zero elsewhere, the scores those of its
  gathered rows of slots 0 and 1; entry (0, p) of the kernel's stored row is the same expression of the kernel's six
  gathered rows; and the six rows are the reference's rows of slots 0 and 1.
-/
import proofs.«403794_j40054865002541_3_alg».proof.Proof.KernelPay
import proofs.«403794_j40054865002541_3_alg».proof.Proof.KDefs
import proofs.«403794_j40054865002541_3_alg».proof.Proof.RefTail
import proofs.«403794_j40054865002541_3_alg».proof.Proof.Gathers

noncomputable section

namespace Cert.Harm

open Idealize.ShloMosaic Idealize.ShloMosaic.ValueIdx
open Cert.ReferenceIdeal.RefValue Cert.KernelIdeal.KValue

/-- The reference's result term is the kernel's stored row at three zero pose words. -/
theorem result_eq (x : FVec Ideal Cert.KernelIdeal.S16x16384x3 .f32) (off : IVec Cert.KernelIdeal.S16x1024 32) :
    rOut (F := Ideal) (rScore (F := Ideal) (rAtoms (F := Ideal) x off))
      = Cert.KernelIdeal.Gen.k0_pay1 (F := Ideal) (kAtoms (F := Ideal) x off) (0#32 : BitVec 32) (0#32 : BitVec 32) (0#32 : BitVec 32) := by
  funext j
  obtain ⟨u, p, rfl⟩ : ∃ (u : Fin 1) (p : Fin 16), j = ix2 u p := ⟨j 0, j 1, eq_ix2 j⟩
  obtain rfl : u = 0 := Subsingleton.elim _ _
  rw [rOut_apply, pay_apply, rScore_apply, rScore_apply, rScore_apply]
  unfold pt
  simp only [atoms_agree0, atoms_agree1]

end Cert.Harm

end
-- ==== Proof.lean ====
/-
  A harmonic distance restraint, scored per pose: the kernel against its reference, over the extended reals.

  Both programs gather, for each of three constraints, two atom rows of the coordinate array (through the block-offset
  table and the constraint table, with the same clamped indexing), and score the constraint by the squared deviation from
  4 of the distance between the two atoms.  The reference then scatter-adds half of each score into two cells of a zero
  array with one 1024 × 1024 plane per pose and sums each plane; the kernel adds each score into the lane of its pose in
  a row of 16 lanes.  All three constraints belong to pose 0, every scatter cell lies in plane 0, two halves of an
  extended real make it whole, and addition of extended reals is commutative and associative: both results hold the sum
  of the three scores at pose 0 and zero at the other fifteen poses.  No finiteness of the inputs is used.

  The kernel's frames hold for every contents of its prefetched pose table, whose side condition is empty: no index map
  reads the table.  The reference has no kernel; its frame is its run with the result dropped.  The idealization rewrote
  nothing, so the preservation conjunct is the true proposition.
-/
import proofs.«403794_j40054865002541_3_alg».proof.Defs
import proofs.«403794_j40054865002541_3_alg».proof.Proof.Gen.Kernel
import proofs.«403794_j40054865002541_3_alg».proof.Proof.Gen.Kernel.Frame
import proofs.«403794_j40054865002541_3_alg».proof.Proof.Gen.Pre_finite_inputs
import proofs.«403794_j40054865002541_3_alg».proof.Proof.KernelValue
import proofs.«403794_j40054865002541_3_alg».proof.Proof.RefRun
import proofs.«403794_j40054865002541_3_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ trivial

theorem frame_ki : Cert.frame_KernelIdeal := fun m ρ _ => Cert.KernelIdeal.Gen.frame m ρ trivial

theorem frame_ri : Cert.frame_ReferenceIdeal := fun m ρ _ =>
  (θ_run Cert.ReferenceIdeal.defs _ _).mono (fun _ h c => (h c).2) (Cert.ReferenceIdeal.RefRun.run (F := Ideal) m ρ)

/-- The kernel's result array ends at its stored row of the gathered atom rows, the reference's at the plane sums of the
    twice-scattered half scores of its gathered rows, of arguments that agree: one function. -/
theorem algebraic : Cert.algebraic_KernelIdeal_ReferenceIdeal := by
  intro m ρ m' ρ' _ hagree
  refine ⟨fun c => Cert.KernelIdeal.KValue.result m c, Cert.KernelIdeal.KValue.run m ρ trivial, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  exact Cert.Harm.result_eq _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
